-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x56x56 : Shape := ⟨4, ![32, 128, 56, 56]⟩
abbrev S256x128x3x3 : Shape := ⟨4, ![256, 128, 3, 3]⟩
abbrev S256 : Shape := ⟨1, ![256]⟩
abbrev S_ : Shape := ⟨0, ![]⟩

class Facts : Prop where
  bcast_S_S32x128x56x56 : S_.BroadcastsInDim S32x128x56x56 (![] : Fin 0 → Fin S32x128x56x56.rank)
  reducesTo_S32x128x56x56_S_d0_1_2_3 : S32x128x56x56.ReducesTo [0, 1, 2, 3] S_
  h_S_ : 0 < S_.numel
  bcast_S_S256x128x3x3 : S_.BroadcastsInDim S256x128x3x3 (![] : Fin 0 → Fin S256x128x3x3.rank)
  reducesTo_S256x128x3x3_S_d0_1_2_3 : S256x128x3x3.ReducesTo [0, 1, 2, 3] S_
  bcast_S_S256 : S_.BroadcastsInDim S256 (![] : Fin 0 → Fin S256.rank)
  reducesTo_S256_S_d0 : S256.ReducesTo [0] S_

variable [Facts]

def fn {F : FTy → Type} [FloatOps F] (main_arg0 : FVec F S32x128x56x56 .f32) (main_arg1 : FVec F S256x128x3x3 .f32) (main_arg2 : FVec F S256 .f32) : IVec S_ 1 :=
  let main_v0 : FVec F S32x128x56x56 .f32 := Host.absf main_arg0
  let main_cst : FVec F S_ .f32 := constant S_ .f32 0x7F800000#32
  let main_v1 : FVec F S32x128x56x56 .f32 := broadcastInDim S32x128x56x56 ![] bcast_S_S32x128x56x56 main_cst
  let main_v2 : IVec S32x128x56x56 1 := cmpf .olt main_v0 main_v1
  let main_c : IVec S_ 1 := constantI S_ 1 1#1
  let main_v3 : IVec S_ 1 := (fun x v => Host.reduce IntOp.andi x v reducesTo_S32x128x56x56_S_d0_1_2_3 h_S_) main_v2 main_c
  let main_v4 : FVec F S256x128x3x3 .f32 := Host.absf main_arg1
  let main_cst_0 : FVec F S_ .f32 := constant S_ .f32 0x7F800000#32
  let main_v5 : FVec F S256x128x3x3 .f32 := broadcastInDim S256x128x3x3 ![] bcast_S_S256x128x3x3 main_cst_0
  let main_v6 : IVec S256x128x3x3 1 := cmpf .olt main_v4 main_v5
  let main_c_1 : IVec S_ 1 := constantI S_ 1 1#1
  let main_v7 : IVec S_ 1 := (fun x v => Host.reduce IntOp.andi x v reducesTo_S256x128x3x3_S_d0_1_2_3 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S32x128x56x56 : Shape := ⟨4, ![32, 128, 56, 56]⟩
abbrev S256x128x3x3 : Shape := ⟨4, ![256, 128, 3, 3]⟩
abbrev S256 : Shape := ⟨1, ![256]⟩
abbrev S32x56x56x128 : Shape := ⟨4, ![32, 56, 56, 128]⟩
abbrev S3x3x128x256 : Shape := ⟨4, ![3, 3, 128, 256]⟩
abbrev S32x56x56x256 : Shape := ⟨4, ![32, 56, 56, 256]⟩
abbrev S2x56x56x128 : Shape := ⟨4, ![2, 56, 56, 128]⟩
abbrev S2x56x56x256 : Shape := ⟨4, ![2, 56, 56, 256]⟩
abbrev S2x58x58x128 : Shape := ⟨4, ![2, 58, 58, 128]⟩
abbrev S6272x256 : Shape := ⟨2, ![6272, 256]⟩
abbrev S2x56x58x128 : Shape := ⟨4, ![2, 56, 58, 128]⟩
abbrev S6272x128 : Shape := ⟨2, ![6272, 128]⟩
abbrev S1x1x128x256 : Shape := ⟨4, ![1, 1, 128, 256]⟩
abbrev S128x256 : Shape := ⟨2, ![128, 256]⟩
abbrev S1x256 : Shape := ⟨2, ![1, 256]⟩
abbrev S32x256x56x56 : Shape := ⟨4, ![32, 256, 56, 56]⟩

abbrev nBuf : Space → Nat
  | .hbm => 9
  | .vmem => 8
  | .smem => 0
  | _ => 0

abbrev bufTy : (tb : Table) → Fin (tcTables nBuf tb) → BufTy
  | .hbm, ⟨0, _⟩ => ⟨S32x128x56x56, .f32⟩
  | .hbm, ⟨1, _⟩ => ⟨S256x128x3x3, .f32⟩
  | .hbm, ⟨2, _⟩ => ⟨S256, .f32⟩
  | .hbm, ⟨3, _⟩ => ⟨S32x56x56x128, .f32⟩
  | .hbm, ⟨4, _⟩ => ⟨S32x56x56x128, .bf16⟩
  | .hbm, ⟨5, _⟩ => ⟨S3x3x128x256, .f32⟩
  | .hbm, ⟨6, _⟩ => ⟨S3x3x128x256, .bf16⟩
  | .hbm, ⟨7, _⟩ => ⟨S32x56x56x256, .f32⟩
  | .hbm, ⟨8, _⟩ => ⟨S32x256x56x56, .f32⟩
  | .local _ .vmem, ⟨0, _⟩ => ⟨S2x56x56x128, .bf16⟩
  | .local _ .vmem, ⟨1, _⟩ => ⟨S2x56x56x128, .bf16⟩
  | .local _ .vmem, ⟨2, _⟩ => ⟨S3x3x128x256, .bf16⟩
  | .local _ .vmem, ⟨3, _⟩ => ⟨S256, .f32⟩
  | .local _ .vmem, ⟨4, _⟩ => ⟨S2x56x56x256, .f32⟩
  | .local _ .vmem, ⟨5, _⟩ => ⟨S2x56x56x256, .f32⟩
  | .local _ .vmem, ⟨6, _⟩ => ⟨S2x58x58x128, .bf16⟩
  | .local _ .vmem, ⟨7, _⟩ => ⟨S6272x256, .f32⟩
  | _, _ => ⟨S32x128x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x56x56x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x3x128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x56x56x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S32x128x56x56_S32x56x56x128_0_2_3_1 : S32x128x56x56.Transposes [0, 2, 3, 1] S32x56x56x128
  bitsLt_bf16_f32 : FTy.bits .bf16 < FTy.bits .f32
  transposes_S256x128x3x3_S3x3x128x256_2_3_1_0 : S256x128x3x3.Transposes [2, 3, 1, 0] S3x3x128x256
  inb_S2x58x58x128_S2x58x58x128_0_0_0_0 : ∀ a, (![0, 0, 0, 0] : Fin 4 → Nat) a + S2x58x58x128.size a ≤ S2x58x58x128.size a
  h_S2x58x58x128 : 0 < S2x58x58x128.numel
  shapeCasts_S2x58x58x128_S2x58x58x128 : S2x58x58x128.ShapeCasts S2x58x58x128
  packedbf16_S2x58x58x128_S2x58x58x128_0_0_0_0 : (Rect.unit (s := S2x58x58x128) ![0, 0, 0, 0] S2x58x58x128.size inb_S2x58x58x128_S2x58x58x128_0_0_0_0).PackedRows (EltTy.packing .bf16)
  inb_S2x56x56x128_S2x56x56x128_0_0_0_0 : ∀ a, (![0, 0, 0, 0] : Fin 4 → Nat) a + S2x56x56x128.size a ≤ S2x56x56x128.size a
  h_S2x56x56x128 : 0 < S2x56x56x128.numel
  shapeCasts_S2x56x56x128_S2x56x56x128 : S2x56x56x128.ShapeCasts S2x56x56x128
  inb_S2x58x58x128_S2x56x56x128_0_1_1_0 : ∀ a, (![0, 1, 1, 0] : Fin 4 → Nat) a + S2x56x56x128.size a ≤ S2x58x58x128.size a
  inb_S2x58x58x128_S2x56x58x128_0_1_0_0 : ∀ a, (![0, 1, 0, 0] : Fin 4 → Nat) a + S2x56x58x128.size a ≤ S2x58x58x128.size a
  h_S2x56x58x128 : 0 < S2x56x58x128.numel
  slices_S2x56x58x128_S2x56x56x128_0_0_1_0 : S2x56x58x128.Slices ![0, 0, 1, 0] S2x56x56x128
  packedbf16_S2x58x58x128_S2x56x58x128_0_1_0_0 : (Rect.unit (s := S2x58x58x128) ![0, 1, 0, 0] S2x56x58x128.size inb_S2x58x58x128_S2x56x58x128_0_1_0_0).PackedRows (EltTy.packing .bf16)
  inb_S6272x256_S6272x256_0_0 : ∀ a, (![0, 0] : Fin 2 → Nat) a + S6272x256.size a ≤ S6272x256.size a
  h_S6272x256 : 0 < S6272x256.numel
  shapeCasts_S6272x256_S6272x256 : S6272x256.ShapeCasts S6272x256
  inb_S2x58x58x128_S2x56x56x128_0_0_0_0 : ∀ a, (![0, 0, 0, 0] : Fin 4 → Nat) a + S2x56x56x128.size a ≤ S2x58x58x128.size a
  shapeCasts_S2x56x56x128_S6272x128 : S2x56x56x128.ShapeCasts S6272x128
  inb_S3x3x128x256_S1x1x128x256_0_0_0_0 : ∀ a, (![0, 0, 0, 0] : Fin 4 → Nat) a + S1x1x128x256.size a ≤ S3x3x128x256.size a
  h_S1x1x128x256 : 0 < S1x1x128x256.numel
  shapeCasts_S1x1x128x256_S128x256 : S1x1x128x256.ShapeCasts S128x256
  inb_S2x58x58x128_S2x56x56x128_0_0_1_0 : ∀ a, (![0, 0, 1, 0] : Fin 4 → Nat) a + S2x56x56x128.size a ≤ S2x58x58x128.size a
  inb_S3x3x128x256_S1x1x128x256_0_1_0_0 : ∀ a, (![0, 1, 0, 0] : Fin 4 → Nat) a + S1x1x128x256.size a ≤ S3x3x128x256.size a
  inb_S2x58x58x128_S2x56x56x128_0_0_2_0 : ∀ a, (![0, 0, 2, 0] : Fin 4 → Nat) a + S2x56x56x128.size a ≤ S2x58x58x128.size a
  inb_S3x3x128x256_S1x1x128x256_0_2_0_0 : ∀ a, (![0, 2, 0, 0] : Fin 4 → Nat) a + S1x1x128x256.size a ≤ S3x3x128x256.size a
  inb_S2x58x58x128_S2x56x56x128_0_1_0_0 : ∀ a, (![0, 1, 0, 0] : Fin 4 → Nat) a + S2x56x56x128.size a ≤ S2x58x58x128.size a
  inb_S3x3x128x256_S1x1x128x256_1_0_0_0 : ∀ a, (![1, 0, 0, 0] : Fin 4 → Nat) a + S1x1x128x256.size a ≤ S3x3x128x256.size a
  inb_S3x3x128x256_S1x1x128x256_1_1_0_0 : ∀ a, (![1, 1, 0, 0] : Fin 4 → Nat) a + S1x1x128x256.size a ≤ S3x3x128x256.size a
  inb_S2x58x58x128_S2x56x56x128_0_1_2_0 : ∀ a, (![0, 1, 2, 0] : Fin 4 → Nat) a + S2x56x56x128.size a ≤ S2x58x58x128.size a
  inb_S3x3x128x256_S1x1x128x256_1_2_0_0 : ∀ a, (![1, 2, 0, 0] : Fin 4 → Nat) a + S1x1x128x256.size a ≤ S3x3x128x256.size a
  inb_S2x58x58x128_S2x56x56x128_0_2_0_0 : ∀ a, (![0, 2, 0, 0] : Fin 4 → Nat) a + S2x56x56x128.size a ≤ S2x58x58x128.size a
  inb_S3x3x128x256_S1x1x128x256_2_0_0_0 : ∀ a, (![2, 0, 0, 0] : Fin 4 → Nat) a + S1x1x128x256.size a ≤ S3x3x128x256.size a
  inb_S2x58x58x128_S2x56x56x128_0_2_1_0 : ∀ a, (![0, 2, 1, 0] : Fin 4 → Nat) a + S2x56x56x128.size a ≤ S2x58x58x128.size a
  inb_S3x3x128x256_S1x1x128x256_2_1_0_0 : ∀ a, (![2, 1, 0, 0] : Fin 4 → Nat) a + S1x1x128x256.size a ≤ S3x3x128x256.size a
  inb_S2x58x58x128_S2x56x56x128_0_2_2_0 : ∀ a, (![0, 2, 2, 0] : Fin 4 → Nat) a + S2x56x56x128.size a ≤ S2x58x58x128.size a
  inb_S3x3x128x256_S1x1x128x256_2_2_0_0 : ∀ a, (![2, 2, 0, 0] : Fin 4 → Nat) a + S1x1x128x256.size a ≤ S3x3x128x256.size a
  inb_S256_S256_0 : ∀ a, (![0] : Fin 1 → Nat) a + S256.size a ≤ S256.size a
  h_S256 : 0 < S256.numel
  shapeCasts_S256_S1x256 : S256.ShapeCasts S1x256
  broadcasts_S1x256_S6272x256 : S1x256.Broadcasts S6272x256
  shapeCasts_S6272x256_S2x56x56x256 : S6272x256.ShapeCasts S2x56x56x256
  inb_S2x56x56x256_S2x56x56x256_0_0_0_0 : ∀ a, (![0, 0, 0, 0] : Fin 4 → Nat) a + S2x56x56x256.size a ≤ S2x56x56x256.size a
  h_S2x56x56x256 : 0 < S2x56x56x256.numel
  transposes_S32x56x56x256_S32x256x56x56_0_3_1_2 : S32x56x56x256.Transposes [0, 3, 1, 2] S32x256x56x56
  dot_S6272x128_S128x256_S6272x256_1_0_0_1_n_n_wf : DotDims.WF S6272x128 S128x256 S6272x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x56x56x128.size a ≤ S32x56x56x128.size a
  hwx0_0 : ∀ i : grid0.Coords, EltTy.bits .bf16 = 32 ∨ (Rect.block (s := S32x56x56x128) S2x56x56x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x3x128x256.size a ≤ S3x3x128x256.size a
  hwx0_1 : ∀ i : grid0.Coords, EltTy.bits .bf16 = 32 ∨ (Rect.block (s := S3x3x128x256) S3x3x128x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x56x56x256.size a ≤ S32x56x56x256.size a
  hwx0_3 : ∀ i : grid0.Coords, EltTy.bits .f32 = 32 ∨ (Rect.block (s := S32x56x56x256) S2x56x56x256.size (cc0_transform_3 i) (hinb0_3 i)).WholeWords (EltTy.packing .f32)

variable [Facts₀]

def dot_S6272x128_S128x256_S6272x256_1_0_0_1_n_n : DotDims S6272x128 S128x256 S6272x256 where
  lhsContracting := [1]
  rhsContracting := [0]
  lhsNonContracting := [0]
  rhsNonContracting := [1]
  lhsBatch := []
  rhsBatch := []
  wf := dot_S6272x128_S128x256_S6272x256_1_0_0_1_n_n_wf

abbrev win0_0 : Pipeline.Window sig grid0 :=
  Pipeline.Window.ofSpec (Memref.whole main_v1) S2x56x56x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S3x3x128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2x56x56x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x128x56x56 : Shape := ⟨4, ![32, 128, 56, 56]⟩
abbrev S256x128x3x3 : Shape := ⟨4, ![256, 128, 3, 3]⟩
abbrev S256 : Shape := ⟨1, ![256]⟩
abbrev S_ : Shape := ⟨0, ![]⟩
abbrev S32x128x58x58 : Shape := ⟨4, ![32, 128, 58, 58]⟩
abbrev S32x128x1x56x56 : Shape := ⟨5, ![32, 128, 1, 56, 56]⟩
abbrev S32x128x9x56x56 : Shape := ⟨5, ![32, 128, 9, 56, 56]⟩
abbrev S32x1152x3136 : Shape := ⟨3, ![32, 1152, 3136]⟩
abbrev S32x3136x1152 : Shape := ⟨3, ![32, 3136, 1152]⟩
abbrev S256x1152 : Shape := ⟨2, ![256, 1152]⟩
abbrev S256x32x3136 : Shape := ⟨3, ![256, 32, 3136]⟩
abbrev S32x256x3136 : Shape := ⟨3, ![32, 256, 3136]⟩
abbrev S32x256x56x56 : Shape := ⟨4, ![32, 256, 56, 56]⟩
abbrev S1x256x1x1 : Shape := ⟨4, ![1, 256, 1, 1]⟩

abbrev nBuf : Space → Nat
  | .hbm => 34
  | .vmem => 0
  | .smem => 0
  | _ => 0

abbrev bufTy : (tb : Table) → Fin (tcTables nBuf tb) → BufTy
  | .hbm, ⟨0, _⟩ => ⟨S32x128x56x56, .f32⟩
  | .hbm, ⟨1, _⟩ => ⟨S256x128x3x3, .f32⟩
  | .hbm, ⟨2, _⟩ => ⟨S256, .f32⟩
  | .hbm, ⟨3, _⟩ => ⟨S_, .i32⟩
  | .hbm, ⟨4, _⟩ => ⟨S_, .f32⟩
  | .hbm, ⟨5, _⟩ => ⟨S32x128x58x58, .f32⟩
  | .hbm, ⟨6, _⟩ => ⟨S32x128x56x56, .f32⟩
  | .hbm, ⟨7, _⟩ => ⟨S32x128x56x56, .f32⟩
  | .hbm, ⟨8, _⟩ => ⟨S32x128x56x56, .f32⟩
  | .hbm, ⟨9, _⟩ => ⟨S32x128x56x56, .f32⟩
  | .hbm, ⟨10, _⟩ => ⟨S32x128x56x56, .f32⟩
  | .hbm, ⟨11, _⟩ => ⟨S32x128x56x56, .f32⟩
  | .hbm, ⟨12, _⟩ => ⟨S32x128x56x56, .f32⟩
  | .hbm, ⟨13, _⟩ => ⟨S32x128x56x56, .f32⟩
  | .hbm, ⟨14, _⟩ => ⟨S32x128x56x56, .f32⟩
  | .hbm, ⟨15, _⟩ => ⟨S32x128x1x56x56, .f32⟩
  | .hbm, ⟨16, _⟩ => ⟨S32x128x1x56x56, .f32⟩
  | .hbm, ⟨17, _⟩ => ⟨S32x128x1x56x56, .f32⟩
  | .hbm, ⟨18, _⟩ => ⟨S32x128x1x56x56, .f32⟩
  | .hbm, ⟨19, _⟩ => ⟨S32x128x1x56x56, .f32⟩
  | .hbm, ⟨20, _⟩ => ⟨S32x128x1x56x56, .f32⟩
  | .hbm, ⟨21, _⟩ => ⟨S32x128x1x56x56, .f32⟩
  | .hbm, ⟨22, _⟩ => ⟨S32x128x1x56x56, .f32⟩
  | .hbm, ⟨23, _⟩ => ⟨S32x128x1x56x56, .f32⟩
  | .hbm, ⟨24, _⟩ => ⟨S32x128x9x56x56, .f32⟩
  | .hbm, ⟨25, _⟩ => ⟨S32x1152x3136, .f32⟩
  | .hbm, ⟨26, _⟩ => ⟨S32x3136x1152, .f32⟩
  | .hbm, ⟨27, _⟩ => ⟨S256x1152, .f32⟩
  | .hbm, ⟨28, _⟩ => ⟨S256x32x3136, .f32⟩
  | .hbm, ⟨29, _⟩ => ⟨S32x256x3136, .f32⟩
  | .hbm, ⟨30, _⟩ => ⟨S32x256x56x56, .f32⟩
  | .hbm, ⟨31, _⟩ => ⟨S1x256x1x1, .f32⟩
  | .hbm, ⟨32, _⟩ => ⟨S32x256x56x56, .f32⟩
  | .hbm, ⟨33, _⟩ => ⟨S32x256x56x56, .f32⟩
  | _, _ => ⟨S32x128x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩

abbrev nD : Nat := 1
abbrev τ : Topo := Topo.v7x

variable {F : FTy → Type} [FloatOps F]

class Facts₀ : Prop where
  pads_S32x128x56x56_S32x128x58x58_000_000_110_110 : S32x128x56x56.Pads (![0, 0, 1, 1] : Fin 4 → Nat) ![0, 0, 1, 1] ![0, 0, 0, 0] S32x128x58x58
  h_S_ : 0 < S_.numel
  slices_S32x128x58x58_S32x128x56x56_0_0_0_0 : S32x128x58x58.Slices ![0, 0, 0, 0] S32x128x56x56
  slices_S32x128x58x58_S32x128x56x56_0_0_0_1 : S32x128x58x58.Slices ![0, 0, 0, 1] S32x128x56x56
  slices_S32x128x58x58_S32x128x56x56_0_0_0_2 : S32x128x58x58.Slices ![0, 0, 0, 2] S32x128x56x56
  slices_S32x128x58x58_S32x128x56x56_0_0_1_0 : S32x128x58x58.Slices ![0, 0, 1, 0] S32x128x56x56
  slices_S32x128x58x58_S32x128x56x56_0_0_1_1 : S32x128x58x58.Slices ![0, 0, 1, 1] S32x128x56x56
  slices_S32x128x58x58_S32x128x56x56_0_0_1_2 : S32x128x58x58.Slices ![0, 0, 1, 2] S32x128x56x56
  slices_S32x128x58x58_S32x128x56x56_0_0_2_0 : S32x128x58x58.Slices ![0, 0, 2, 0] S32x128x56x56
  slices_S32x128x58x58_S32x128x56x56_0_0_2_1 : S32x128x58x58.Slices ![0, 0, 2, 1] S32x128x56x56
  slices_S32x128x58x58_S32x128x56x56_0_0_2_2 : S32x128x58x58.Slices ![0, 0, 2, 2] S32x128x56x56
  bcast_S32x128x56x56_S32x128x1x56x56_0_1_3_4 : S32x128x56x56.BroadcastsInDim S32x128x1x56x56 (![0, 1, 3, 4] : Fin 4 → Fin S32x128x1x56x56.rank)
  concatenates_S32x128x1x56x56_S32x128x1x56x56_S32x128x1x56x56_S32x128x1x56x56_S32x128x1x56x56_S32x128x1x56x56_S32x128x1x56x56_S32x128x1x56x56_S32x128x1x56x56_S32x128x9x56x56_d2 : Shape.Concatenates [S32x128x1x56x56, S32x128x1x56x56, S32x128x1x56x56, S32x128x1x56x56, S32x128x1x56x56, S32x128x1x56x56, S32x128x1x56x56, S32x128x1x56x56, S32x128x1x56x56] S32x128x9x56x56 2
  shapeCasts_S32x128x9x56x56_S32x1152x3136 : S32x128x9x56x56.ShapeCasts S32x1152x3136
  transposes_S32x1152x3136_S32x3136x1152_0_2_1 : S32x1152x3136.Transposes [0, 2, 1] S32x3136x1152
  shapeCasts_S256x128x3x3_S256x1152 : S256x128x3x3.ShapeCasts S256x1152
  transposes_S256x32x3136_S32x256x3136_1_0_2 : S256x32x3136.Transposes [1, 0, 2] S32x256x3136
  shapeCasts_S32x256x3136_S32x256x56x56 : S32x256x3136.ShapeCasts S32x256x56x56
  shapeCasts_S256_S1x256x1x1 : S256.ShapeCasts S1x256x1x1
  bcast_S1x256x1x1_S32x256x56x56_0_1_2_3 : S1x256x1x1.BroadcastsInDim S32x256x56x56 (![0, 1, 2, 3] : Fin 4 → Fin S32x256x56x56.rank)
  dot_S256x1152_S32x3136x1152_S256x32x3136_1_2_0_01_n_n_wf : DotDims.WF S256x1152 S32x3136x1152 S256x32x3136 [1] [2] [0] [0, 1] [] []

variable [Facts₀]

def dot_S256x1152_S32x3136x1152_S256x32x3136_1_2_0_01_n_n : DotDims S256x1152 S32x3136x1152 S256x32x3136 where
  lhsContracting := [1]
  rhsContracting := [2]
  lhsNonContracting := [0]
  rhsNonContracting := [0, 1]
  lhsBatch := []
  rhsBatch := []
  wf := dot_S256x1152_S32x3136x1152_S256x32x3136_1_2_0_01_n_n_wf

class Facts : Prop extends Facts₀ where

variable [Facts]
-- ==== Proof.BodyBits.lean ====
/-
  The convolution kernel's body, for every float instance: what one grid point leaves in the output block, as a
  function of the three input blocks; the body's triple; the pipeline's proof data; the frame run.

  The body fills a `[2, 58, 58, 128]` scratch with zeros and stores the image block `[2, 56, 56, 128]` into its
  interior (rows and columns 1..56): the store goes through the rows 1..56 at every column, the columns 0 and 57 kept as
  read back. It then zeroes a `[6272, 256]` accumulator and, for each of the nine taps `(i, j)`, adds to it the product
  of the scratch window at offset `(i, j)` (flattened to `[6272, 128]`) with the filter slice `(i, j)` (`[128, 256]`).
  Last it adds the bias along the rows and stores the result, reshaped to `[2, 56, 56, 256]`, into the output block.
-/
import proofs.«171183_j29085518529124_1_alg».proof.Proof.Gen.Kernel.Frame
import proofs.«171183_j29085518529124_1_alg».proof.Proof.Gen.Kernel.Skeleton
import Idealize.ShloMosaic.Lib.Pipeline.Value

set_option maxRecDepth 16384

noncomputable section

namespace Cert.Kernel.Body

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

/-! ## The rectangles the body loads and stores through -/

/-- The whole padded scratch. -/
abbrev rPad : Rect S2x58x58x128 := Rect.unit (s := S2x58x58x128) ![0, 0, 0, 0] S2x58x58x128.size inb_S2x58x58x128_S2x58x58x128_0_0_0_0
/-- Its rows 1..56, every column: what the store of the image block goes through. -/
abbrev rRows : Rect S2x58x58x128 := Rect.unit (s := S2x58x58x128) ![0, 1, 0, 0] S2x56x58x128.size inb_S2x58x58x128_S2x56x58x128_0_1_0_0
/-- The whole image block, accumulator, bias and output block. -/
abbrev rX : Rect S2x56x56x128 := Rect.unit (s := S2x56x56x128) ![0, 0, 0, 0] S2x56x56x128.size inb_S2x56x56x128_S2x56x56x128_0_0_0_0
abbrev rAcc : Rect S6272x256 := Rect.unit (s := S6272x256) ![0, 0] S6272x256.size inb_S6272x256_S6272x256_0_0
abbrev rB : Rect S256 := Rect.unit (s := S256) ![0] S256.size inb_S256_S256_0
abbrev rOut : Rect S2x56x56x256 := Rect.unit (s := S2x56x56x256) ![0, 0, 0, 0] S2x56x56x256.size inb_S2x56x56x256_S2x56x56x256_0_0_0_0
/-- The scratch window of tap `(i, j)` (`rTij`) and the filter slice of tap `(i, j)` (`rWij`). -/
abbrev rT00 : Rect S2x58x58x128 := Rect.unit (s := S2x58x58x128) ![0, 0, 0, 0] S2x56x56x128.size inb_S2x58x58x128_S2x56x56x128_0_0_0_0
abbrev rT01 : Rect S2x58x58x128 := Rect.unit (s := S2x58x58x128) ![0, 0, 1, 0] S2x56x56x128.size inb_S2x58x58x128_S2x56x56x128_0_0_1_0
abbrev rT02 : Rect S2x58x58x128 := Rect.unit (s := S2x58x58x128) ![0, 0, 2, 0] S2x56x56x128.size inb_S2x58x58x128_S2x56x56x128_0_0_2_0
abbrev rT10 : Rect S2x58x58x128 := Rect.unit (s := S2x58x58x128) ![0, 1, 0, 0] S2x56x56x128.size inb_S2x58x58x128_S2x56x56x128_0_1_0_0
abbrev rT11 : Rect S2x58x58x128 := Rect.unit (s := S2x58x58x128) ![0, 1, 1, 0] S2x56x56x128.size inb_S2x58x58x128_S2x56x56x128_0_1_1_0
abbrev rT12 : Rect S2x58x58x128 := Rect.unit (s := S2x58x58x128) ![0, 1, 2, 0] S2x56x56x128.size inb_S2x58x58x128_S2x56x56x128_0_1_2_0
abbrev rT20 : Rect S2x58x58x128 := Rect.unit (s := S2x58x58x128) ![0, 2, 0, 0] S2x56x56x128.size inb_S2x58x58x128_S2x56x56x128_0_2_0_0
abbrev rT21 : Rect S2x58x58x128 := Rect.unit (s := S2x58x58x128) ![0, 2, 1, 0] S2x56x56x128.size inb_S2x58x58x128_S2x56x56x128_0_2_1_0
abbrev rT22 : Rect S2x58x58x128 := Rect.unit (s := S2x58x58x128) ![0, 2, 2, 0] S2x56x56x128.size inb_S2x58x58x128_S2x56x56x128_0_2_2_0
abbrev rW00 : Rect S3x3x128x256 := Rect.unit (s := S3x3x128x256) ![0, 0, 0, 0] S1x1x128x256.size inb_S3x3x128x256_S1x1x128x256_0_0_0_0
abbrev rW01 : Rect S3x3x128x256 := Rect.unit (s := S3x3x128x256) ![0, 1, 0, 0] S1x1x128x256.size inb_S3x3x128x256_S1x1x128x256_0_1_0_0
abbrev rW02 : Rect S3x3x128x256 := Rect.unit (s := S3x3x128x256) ![0, 2, 0, 0] S1x1x128x256.size inb_S3x3x128x256_S1x1x128x256_0_2_0_0
abbrev rW10 : Rect S3x3x128x256 := Rect.unit (s := S3x3x128x256) ![1, 0, 0, 0] S1x1x128x256.size inb_S3x3x128x256_S1x1x128x256_1_0_0_0
abbrev rW11 : Rect S3x3x128x256 := Rect.unit (s := S3x3x128x256) ![1, 1, 0, 0] S1x1x128x256.size inb_S3x3x128x256_S1x1x128x256_1_1_0_0
abbrev rW12 : Rect S3x3x128x256 := Rect.unit (s := S3x3x128x256) ![1, 2, 0, 0] S1x1x128x256.size inb_S3x3x128x256_S1x1x128x256_1_2_0_0
abbrev rW20 : Rect S3x3x128x256 := Rect.unit (s := S3x3x128x256) ![2, 0, 0, 0] S1x1x128x256.size inb_S3x3x128x256_S1x1x128x256_2_0_0_0
abbrev rW21 : Rect S3x3x128x256 := Rect.unit (s := S3x3x128x256) ![2, 1, 0, 0] S1x1x128x256.size inb_S3x3x128x256_S1x1x128x256_2_1_0_0
abbrev rW22 : Rect S3x3x128x256 := Rect.unit (s := S3x3x128x256) ![2, 2, 0, 0] S1x1x128x256.size inb_S3x3x128x256_S1x1x128x256_2_2_0_0

/-! ## What the body computes -/

/-- The padded scratch after the zero fill and the store of the image block `x` into its interior, as the list of
    its two stores (last first): the rows 1..56 re-stored with the block at columns 1..56 over what the zero fill
    left there, and the zero fill. -/
def padPieces (x : Vec F S2x56x56x128 .bf16) : List (View.Piece (Elt F) S2x58x58x128 .bf16) :=
  [⟨rRows, updateSlice (fun j => View.canon [(⟨rPad, k0_pay3⟩ : View.Piece (Elt F) S2x58x58x128 .bf16)] (rRows.toLoadRect.idx j))
      (k0_pay4 (View.ld x rX)) ![0, 0, 1, 0] slices_S2x56x58x128_S2x56x56x128_0_0_1_0⟩,
   ⟨rPad, k0_pay3⟩]

/-- The scratch's contents. -/
def padV (x : Vec F S2x56x56x128 .bf16) : S2x58x58x128.Idx → Elt F .bf16 := View.canon (padPieces x)

/-- The window of the scratch a tap loads. -/
def tapV (x : Vec F S2x56x56x128 .bf16) (r : Rect S2x58x58x128) : r.toLoadRect.shape.Idx → Elt F .bf16 :=
  fun j => View.canon (padPieces x) (r.toLoadRect.idx j)

/-- The accumulator after each tap: zero, then one product added per tap, in the order (0,0), (0,1), …, (2,2). -/
def acc1 (x : Vec F S2x56x56x128 .bf16) (w : Vec F S3x3x128x256 .bf16) : FVec F S6272x256 .f32 :=
  k0_pay6 (tapV x rT00) (View.ld w rW00) k0_pay5
def acc2 (x : Vec F S2x56x56x128 .bf16) (w : Vec F S3x3x128x256 .bf16) : FVec F S6272x256 .f32 :=
  k0_pay7 (tapV x rT01) (View.ld w rW01) (acc1 x w)
def acc3 (x : Vec F S2x56x56x128 .bf16) (w : Vec F S3x3x128x256 .bf16) : FVec F S6272x256 .f32 :=
  k0_pay8 (tapV x rT02) (View.ld w rW02) (acc2 x w)
def acc4 (x : Vec F S2x56x56x128 .bf16) (w : Vec F S3x3x128x256 .bf16) : FVec F S6272x256 .f32 :=
  k0_pay11 (k0_pay9 (tapV x rT10)) (k0_pay10 (View.ld w rW10)) (acc3 x w)
def acc5 (x : Vec F S2x56x56x128 .bf16) (w : Vec F S3x3x128x256 .bf16) : FVec F S6272x256 .f32 :=
  k0_pay12 (tapV x rT11) (View.ld w rW11) (acc4 x w)
def acc6 (x : Vec F S2x56x56x128 .bf16) (w : Vec F S3x3x128x256 .bf16) : FVec F S6272x256 .f32 :=
  k0_pay13 (tapV x rT12) (View.ld w rW12) (acc5 x w)
def acc7 (x : Vec F S2x56x56x128 .bf16) (w : Vec F S3x3x128x256 .bf16) : FVec F S6272x256 .f32 :=
  k0_pay14 (tapV x rT20) (View.ld w rW20) (acc6 x w)
def acc8 (x : Vec F S2x56x56x128 .bf16) (w : Vec F S3x3x128x256 .bf16) : FVec F S6272x256 .f32 :=
  k0_pay15 (tapV x rT21) (View.ld w rW21) (acc7 x w)
def acc9 (x : Vec F S2x56x56x128 .bf16) (w : Vec F S3x3x128x256 .bf16) : FVec F S6272x256 .f32 :=
  k0_pay1 (k0_pay16 (tapV x rT22)) (k0_pay17 (View.ld w rW22)) (acc8 x w)

/-- What the body leaves in the output block: the nine taps' sum plus the bias, reshaped. -/
def OUT (x : Vec F S2x56x56x128 .bf16) (w : Vec F S3x3x128x256 .bf16) (b : Vec F S256 .f32) : FVec F S2x56x56x256 .f32 :=
  k0_pay2 (acc9 x w) (View.ld b rB)

/-- The whole-buffer rectangle's offsets are zero. -/
theorem off4 : (![0, 0, 0, 0] : Fin 4 → ℕ) = fun _ => 0 := funext fun a => by fin_cases a <;> rfl

/-! ## The body's triple -/

/-- The kernel body on whole memrefs — the inputs' at read contents `x1`, `x2`, `x3`, the output's and the two
    scratch buffers' at anything — runs to the continuation holding the inputs' as they were, the output's at
    `OUT x1 x2 x3` and the scratch buffers at something. Every load of a scratch buffer is covered by the stores
    before it, so it reads a term over the stores' payloads; the accumulator's loads read the last store's payload. -/
theorem sound_kernel (c : Dev nD) (i : grid0.Coords)
    (arg1 : Memref sig .tc .vmem S2x56x56x128 .bf16) (harg1 : arg1.IsWhole)
    (arg2 : Memref sig .tc .vmem S3x3x128x256 .bf16) (harg2 : arg2.IsWhole)
    (arg3 : Memref sig .tc .vmem S256 .f32) (harg3 : arg3.IsWhole)
    (arg4 : Memref sig .tc .vmem S2x56x56x256 .f32) (harg4 : arg4.IsWhole)
    (arg5 : Memref sig .tc .vmem S2x58x58x128 .bf16) (harg5 : arg5.IsWhole)
    (arg6 : Memref sig .tc .vmem S6272x256 .f32) (harg6 : arg6.IsWhole)
    (x1 : Vec F S2x56x56x128 .bf16) (x2 : Vec F S3x3x128x256 .bf16) (x3 : Vec F S256 .f32) (K : PUnit → sProp 𝕄) :
    iprop(owns (c : Thread nD τ) arg1 fullShare x1 ∗ owns (c : Thread nD τ) arg2 fullShare x2 ∗ owns (c : Thread nD τ) arg3 fullShare x3
        ∗ (∃ d, owns (c : Thread nD τ) arg4 fullShare d)
        ∗ (∃ g, arg5.view.loc (c : Thread nD τ) ↦[arg5.view.set]{fullShare} g)
        ∗ (∃ g, arg6.view.loc (c : Thread nD τ) ↦[arg6.view.set]{fullShare} g)
        ∗ (iprop(owns (c : Thread nD τ) arg1 fullShare x1 ∗ owns (c : Thread nD τ) arg2 fullShare x2 ∗ owns (c : Thread nD τ) arg3 fullShare x3
            ∗ owns (c : Thread nD τ) arg4 fullShare (OUT x1 x2 x3)
            ∗ (∃ g, arg5.view.loc (c : Thread nD τ) ↦[arg5.view.set]{fullShare} g)
            ∗ (∃ g, arg6.view.loc (c : Thread nD τ) ↦[arg6.view.set]{fullShare} g)) -∗ K ⟨⟩))
      ⊢ wp frame (wpE (defs₀ (F := F)) Variants.none c none) Set.univ (cc0__conv_kernel i arg1 harg1 arg2 harg2 arg3 harg3 arg4 harg4 arg5 harg5 arg6 harg6) K := by
  unfold owns
  iintro ⟨⟨%f1, %hf1, H1⟩, ⟨%f2, %hf2, H2⟩, ⟨%f3, %hf3, H3⟩, ⟨%d4, %f4, -, H4⟩, ⟨%g5, H5⟩, ⟨%g6, H6⟩, Hk⟩
  subst hf1 hf2 hf3
  sl_unfold [cc0__conv_kernel]
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (fun y => ⟨_, List.mem_singleton_self _, View.mem_set_unit_zero off4 inb_S2x56x56x256_S2x56x56x256_0_0_0_0 y⟩),
      View.canon_unit_zero off4]
    sl_unfold_run_names
    simp only [View.readCov_cons_toLoadRect]
    simp only [View.readCov_eq_canon', View.readAt_eq_ld]
    rfl
  isplitl [H5]
  · iexists _; iexact H5
  iexists _; iexact H6

/-! ## The pipeline's proof data -/

variable (m : (ℓ : Loc nD τ sig) → Buf (Elt F) ℓ) (ρ : Dev nD → PrngReg)

/-- The proof data of the one pipeline on core `c`: the arrays as the region finds them; after the body at point `t`
    each input's buffer at its block and the output's at `OUT` of the three input blocks; the invariant holds the two
    scratch buffers at anything and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => OUT (iblk m c 0 t) (iblk m c 1 t) (iblk m c 2 t)
  Φ _ := ΦA spec0 c
  q _ := fullShare
  owed _ := 0

theorem A_eq (c : Dev nD) (w : Fin cfg0.W) : (dats m 0 c).A w = V m c (Pipeline.arrRef spec0 w) := rfl

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = OUT (iblk m c 0 t) (iblk m c 1 t) (iblk m c 2 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- A scratch buffer as the invariant holds it and as the body's run names it: one points-to. -/
theorem scr0_eq (c : Dev nD) (f : Buf (Elt F) ((c : Thread nD τ).loc cc0_scratch0)) :
    ((Memref.whole cc0_scratch0 : Memref sig .tc .vmem S2x58x58x128 .bf16).view.loc (c : Thread nD τ)
        ↦[(Memref.whole cc0_scratch0 : Memref sig .tc .vmem S2x58x58x128 .bf16).view.set]{fullShare} f : sProp 𝕄)
      = ((c : Thread nD τ).loc cc0_scratch0) ↦{fullShare} f := by
  simp only [Memref.view_whole, View.set_whole]
theorem scr1_eq (c : Dev nD) (f : Buf (Elt F) ((c : Thread nD τ).loc cc0_scratch1)) :
    ((Memref.whole cc0_scratch1 : Memref sig .tc .vmem S6272x256 .f32).view.loc (c : Thread nD τ)
        ↦[(Memref.whole cc0_scratch1 : Memref sig .tc .vmem S6272x256 .f32).view.set]{fullShare} f : sProp 𝕄)
      = ((c : Thread nD τ).loc cc0_scratch1) ↦{fullShare} f := by
  simp only [Memref.view_whole, View.set_whole]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, the invariant yields the two scratch buffers and
    takes them back, so the body's triple applies; the core's debt and the generator register pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, show (dats m 0 c).Φ t.castSucc = ΦA spec0 c from rfl]
  unfold ΦA
  rw [scopedRest0_eq]
  iintro ⟨⟨⟨⟨%g5, HS5⟩, ⟨%g6, HS6⟩⟩, HR⟩, Ho, ⟨%d0, H0⟩, ⟨%d1, H1⟩, ⟨%d2, H2⟩, ⟨%d3, H3⟩⟩
  iapply (sound_kernel c (grid0.coords t) _ _ _ _ _ _ _ _ (Memref.whole cc0_scratch0) (Memref.isWhole_whole _)
    (Memref.whole cc0_scratch1) (Memref.isWhole_whole _) (iblk m c 0 t) (iblk m c 1 t) (iblk m c 2 t) _)
  isplitl [H0]; · iexact H0
  isplitl [H1]; · iexact H1
  isplitl [H2]; · iexact H2
  isplitl [H3]; · iexists _; iexact H3
  isplitl [HS5]; · iexists g5; rw [scr0_eq]; iexact HS5
  isplitl [HS6]; · iexists g6; rw [scr1_eq]; iexact HS6
  iintro ⟨H0, H1, H2, H3, ⟨%g5', HS5⟩, ⟨%g6', HS6⟩⟩
  isplitl [HS5 HS6 HR]
  · isplitl [HS5 HS6]
    · isplitl [HS5]
      · iexists g5'; rw [← scr0_eq]; iexact HS5
      · iexists g6'; rw [← scr1_eq]; iexact HS6
    iexact HR
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- For any values, from any memory with zero counters: every weakly fair execution of @main terminates, and every
    final state has every array of the pipeline at what the proof data give and every other unscoped buffer as the
    line after the region leaves it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere and leaves its three arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.BodyIdeal.lean ====
/-
  The convolution kernel's body, for every float instance: what one grid point leaves in the output block, as a
  function of the three input blocks; the body's triple; the pipeline's proof data; the frame run.

  The body fills a `[2, 58, 58, 128]` scratch with zeros and stores the image block `[2, 56, 56, 128]` into its
  interior (rows and columns 1..56): the store goes through the rows 1..56 at every column, the columns 0 and 57 kept as
  read back. It then zeroes a `[6272, 256]` accumulator and, for each of the nine taps `(i, j)`, adds to it the product
  of the scratch window at offset `(i, j)` (flattened to `[6272, 128]`) with the filter slice `(i, j)` (`[128, 256]`).
  Last it adds the bias along the rows and stores the result, reshaped to `[2, 56, 56, 256]`, into the output block.
-/
import proofs.«171183_j29085518529124_1_alg».proof.Proof.Gen.KernelIdeal.Frame
import proofs.«171183_j29085518529124_1_alg».proof.Proof.Gen.KernelIdeal.Skeleton
import Idealize.ShloMosaic.Lib.Pipeline.Value

set_option maxRecDepth 16384

noncomputable section

namespace Cert.KernelIdeal.Body

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

/-! ## The rectangles the body loads and stores through -/

/-- The whole padded scratch. -/
abbrev rPad : Rect S2x58x58x128 := Rect.unit (s := S2x58x58x128) ![0, 0, 0, 0] S2x58x58x128.size inb_S2x58x58x128_S2x58x58x128_0_0_0_0
/-- Its rows 1..56, every column: what the store of the image block goes through. -/
abbrev rRows : Rect S2x58x58x128 := Rect.unit (s := S2x58x58x128) ![0, 1, 0, 0] S2x56x58x128.size inb_S2x58x58x128_S2x56x58x128_0_1_0_0
/-- The whole image block, accumulator, bias and output block. -/
abbrev rX : Rect S2x56x56x128 := Rect.unit (s := S2x56x56x128) ![0, 0, 0, 0] S2x56x56x128.size inb_S2x56x56x128_S2x56x56x128_0_0_0_0
abbrev rAcc : Rect S6272x256 := Rect.unit (s := S6272x256) ![0, 0] S6272x256.size inb_S6272x256_S6272x256_0_0
abbrev rB : Rect S256 := Rect.unit (s := S256) ![0] S256.size inb_S256_S256_0
abbrev rOut : Rect S2x56x56x256 := Rect.unit (s := S2x56x56x256) ![0, 0, 0, 0] S2x56x56x256.size inb_S2x56x56x256_S2x56x56x256_0_0_0_0
/-- The scratch window of tap `(i, j)` (`rTij`) and the filter slice of tap `(i, j)` (`rWij`). -/
abbrev rT00 : Rect S2x58x58x128 := Rect.unit (s := S2x58x58x128) ![0, 0, 0, 0] S2x56x56x128.size inb_S2x58x58x128_S2x56x56x128_0_0_0_0
abbrev rT01 : Rect S2x58x58x128 := Rect.unit (s := S2x58x58x128) ![0, 0, 1, 0] S2x56x56x128.size inb_S2x58x58x128_S2x56x56x128_0_0_1_0
abbrev rT02 : Rect S2x58x58x128 := Rect.unit (s := S2x58x58x128) ![0, 0, 2, 0] S2x56x56x128.size inb_S2x58x58x128_S2x56x56x128_0_0_2_0
abbrev rT10 : Rect S2x58x58x128 := Rect.unit (s := S2x58x58x128) ![0, 1, 0, 0] S2x56x56x128.size inb_S2x58x58x128_S2x56x56x128_0_1_0_0
abbrev rT11 : Rect S2x58x58x128 := Rect.unit (s := S2x58x58x128) ![0, 1, 1, 0] S2x56x56x128.size inb_S2x58x58x128_S2x56x56x128_0_1_1_0
abbrev rT12 : Rect S2x58x58x128 := Rect.unit (s := S2x58x58x128) ![0, 1, 2, 0] S2x56x56x128.size inb_S2x58x58x128_S2x56x56x128_0_1_2_0
abbrev rT20 : Rect S2x58x58x128 := Rect.unit (s := S2x58x58x128) ![0, 2, 0, 0] S2x56x56x128.size inb_S2x58x58x128_S2x56x56x128_0_2_0_0
abbrev rT21 : Rect S2x58x58x128 := Rect.unit (s := S2x58x58x128) ![0, 2, 1, 0] S2x56x56x128.size inb_S2x58x58x128_S2x56x56x128_0_2_1_0
abbrev rT22 : Rect S2x58x58x128 := Rect.unit (s := S2x58x58x128) ![0, 2, 2, 0] S2x56x56x128.size inb_S2x58x58x128_S2x56x56x128_0_2_2_0
abbrev rW00 : Rect S3x3x128x256 := Rect.unit (s := S3x3x128x256) ![0, 0, 0, 0] S1x1x128x256.size inb_S3x3x128x256_S1x1x128x256_0_0_0_0
abbrev rW01 : Rect S3x3x128x256 := Rect.unit (s := S3x3x128x256) ![0, 1, 0, 0] S1x1x128x256.size inb_S3x3x128x256_S1x1x128x256_0_1_0_0
abbrev rW02 : Rect S3x3x128x256 := Rect.unit (s := S3x3x128x256) ![0, 2, 0, 0] S1x1x128x256.size inb_S3x3x128x256_S1x1x128x256_0_2_0_0
abbrev rW10 : Rect S3x3x128x256 := Rect.unit (s := S3x3x128x256) ![1, 0, 0, 0] S1x1x128x256.size inb_S3x3x128x256_S1x1x128x256_1_0_0_0
abbrev rW11 : Rect S3x3x128x256 := Rect.unit (s := S3x3x128x256) ![1, 1, 0, 0] S1x1x128x256.size inb_S3x3x128x256_S1x1x128x256_1_1_0_0
abbrev rW12 : Rect S3x3x128x256 := Rect.unit (s := S3x3x128x256) ![1, 2, 0, 0] S1x1x128x256.size inb_S3x3x128x256_S1x1x128x256_1_2_0_0
abbrev rW20 : Rect S3x3x128x256 := Rect.unit (s := S3x3x128x256) ![2, 0, 0, 0] S1x1x128x256.size inb_S3x3x128x256_S1x1x128x256_2_0_0_0
abbrev rW21 : Rect S3x3x128x256 := Rect.unit (s := S3x3x128x256) ![2, 1, 0, 0] S1x1x128x256.size inb_S3x3x128x256_S1x1x128x256_2_1_0_0
abbrev rW22 : Rect S3x3x128x256 := Rect.unit (s := S3x3x128x256) ![2, 2, 0, 0] S1x1x128x256.size inb_S3x3x128x256_S1x1x128x256_2_2_0_0

/-! ## What the body computes -/

/-- The padded scratch after the zero fill and the store of the image block `x` into its interior, as the list of
    its two stores (last first): the rows 1..56 re-stored with the block at columns 1..56 over what the zero fill
    left there, and the zero fill. -/
def padPieces (x : Vec F S2x56x56x128 .bf16) : List (View.Piece (Elt F) S2x58x58x128 .bf16) :=
  [⟨rRows, updateSlice (fun j => View.canon [(⟨rPad, k0_pay3⟩ : View.Piece (Elt F) S2x58x58x128 .bf16)] (rRows.toLoadRect.idx j))
      (k0_pay4 (View.ld x rX)) ![0, 0, 1, 0] slices_S2x56x58x128_S2x56x56x128_0_0_1_0⟩,
   ⟨rPad, k0_pay3⟩]

/-- The scratch's contents. -/
def padV (x : Vec F S2x56x56x128 .bf16) : S2x58x58x128.Idx → Elt F .bf16 := View.canon (padPieces x)

/-- The window of the scratch a tap loads. -/
def tapV (x : Vec F S2x56x56x128 .bf16) (r : Rect S2x58x58x128) : r.toLoadRect.shape.Idx → Elt F .bf16 :=
  fun j => View.canon (padPieces x) (r.toLoadRect.idx j)

/-- The accumulator after each tap: zero, then one product added per tap, in the order (0,0), (0,1), …, (2,2). -/
def acc1 (x : Vec F S2x56x56x128 .bf16) (w : Vec F S3x3x128x256 .bf16) : FVec F S6272x256 .f32 :=
  k0_pay6 (tapV x rT00) (View.ld w rW00) k0_pay5
def acc2 (x : Vec F S2x56x56x128 .bf16) (w : Vec F S3x3x128x256 .bf16) : FVec F S6272x256 .f32 :=
  k0_pay7 (tapV x rT01) (View.ld w rW01) (acc1 x w)
def acc3 (x : Vec F S2x56x56x128 .bf16) (w : Vec F S3x3x128x256 .bf16) : FVec F S6272x256 .f32 :=
  k0_pay8 (tapV x rT02) (View.ld w rW02) (acc2 x w)
def acc4 (x : Vec F S2x56x56x128 .bf16) (w : Vec F S3x3x128x256 .bf16) : FVec F S6272x256 .f32 :=
  k0_pay11 (k0_pay9 (tapV x rT10)) (k0_pay10 (View.ld w rW10)) (acc3 x w)
def acc5 (x : Vec F S2x56x56x128 .bf16) (w : Vec F S3x3x128x256 .bf16) : FVec F S6272x256 .f32 :=
  k0_pay12 (tapV x rT11) (View.ld w rW11) (acc4 x w)
def acc6 (x : Vec F S2x56x56x128 .bf16) (w : Vec F S3x3x128x256 .bf16) : FVec F S6272x256 .f32 :=
  k0_pay13 (tapV x rT12) (View.ld w rW12) (acc5 x w)
def acc7 (x : Vec F S2x56x56x128 .bf16) (w : Vec F S3x3x128x256 .bf16) : FVec F S6272x256 .f32 :=
  k0_pay14 (tapV x rT20) (View.ld w rW20) (acc6 x w)
def acc8 (x : Vec F S2x56x56x128 .bf16) (w : Vec F S3x3x128x256 .bf16) : FVec F S6272x256 .f32 :=
  k0_pay15 (tapV x rT21) (View.ld w rW21) (acc7 x w)
def acc9 (x : Vec F S2x56x56x128 .bf16) (w : Vec F S3x3x128x256 .bf16) : FVec F S6272x256 .f32 :=
  k0_pay1 (k0_pay16 (tapV x rT22)) (k0_pay17 (View.ld w rW22)) (acc8 x w)

/-- What the body leaves in the output block: the nine taps' sum plus the bias, reshaped. -/
def OUT (x : Vec F S2x56x56x128 .bf16) (w : Vec F S3x3x128x256 .bf16) (b : Vec F S256 .f32) : FVec F S2x56x56x256 .f32 :=
  k0_pay2 (acc9 x w) (View.ld b rB)

/-- The whole-buffer rectangle's offsets are zero. -/
theorem off4 : (![0, 0, 0, 0] : Fin 4 → ℕ) = fun _ => 0 := funext fun a => by fin_cases a <;> rfl

/-! ## The body's triple -/

/-- The kernel body on whole memrefs — the inputs' at read contents `x1`, `x2`, `x3`, the output's and the two
    scratch buffers' at anything — runs to the continuation holding the inputs' as they were, the output's at
    `OUT x1 x2 x3` and the scratch buffers at something. Every load of a scratch buffer is covered by the stores
    before it, so it reads a term over the stores' payloads; the accumulator's loads read the last store's payload. -/
theorem sound_kernel (c : Dev nD) (i : grid0.Coords)
    (arg1 : Memref sig .tc .vmem S2x56x56x128 .bf16) (harg1 : arg1.IsWhole)
    (arg2 : Memref sig .tc .vmem S3x3x128x256 .bf16) (harg2 : arg2.IsWhole)
    (arg3 : Memref sig .tc .vmem S256 .f32) (harg3 : arg3.IsWhole)
    (arg4 : Memref sig .tc .vmem S2x56x56x256 .f32) (harg4 : arg4.IsWhole)
    (arg5 : Memref sig .tc .vmem S2x58x58x128 .bf16) (harg5 : arg5.IsWhole)
    (arg6 : Memref sig .tc .vmem S6272x256 .f32) (harg6 : arg6.IsWhole)
    (x1 : Vec F S2x56x56x128 .bf16) (x2 : Vec F S3x3x128x256 .bf16) (x3 : Vec F S256 .f32) (K : PUnit → sProp 𝕄) :
    iprop(owns (c : Thread nD τ) arg1 fullShare x1 ∗ owns (c : Thread nD τ) arg2 fullShare x2 ∗ owns (c : Thread nD τ) arg3 fullShare x3
        ∗ (∃ d, owns (c : Thread nD τ) arg4 fullShare d)
        ∗ (∃ g, arg5.view.loc (c : Thread nD τ) ↦[arg5.view.set]{fullShare} g)
        ∗ (∃ g, arg6.view.loc (c : Thread nD τ) ↦[arg6.view.set]{fullShare} g)
        ∗ (iprop(owns (c : Thread nD τ) arg1 fullShare x1 ∗ owns (c : Thread nD τ) arg2 fullShare x2 ∗ owns (c : Thread nD τ) arg3 fullShare x3
            ∗ owns (c : Thread nD τ) arg4 fullShare (OUT x1 x2 x3)
            ∗ (∃ g, arg5.view.loc (c : Thread nD τ) ↦[arg5.view.set]{fullShare} g)
            ∗ (∃ g, arg6.view.loc (c : Thread nD τ) ↦[arg6.view.set]{fullShare} g)) -∗ K ⟨⟩))
      ⊢ wp frame (wpE (defs₀ (F := F)) Variants.none c none) Set.univ (cc0__conv_kernel i arg1 harg1 arg2 harg2 arg3 harg3 arg4 harg4 arg5 harg5 arg6 harg6) K := by
  unfold owns
  iintro ⟨⟨%f1, %hf1, H1⟩, ⟨%f2, %hf2, H2⟩, ⟨%f3, %hf3, H3⟩, ⟨%d4, %f4, -, H4⟩, ⟨%g5, H5⟩, ⟨%g6, H6⟩, Hk⟩
  subst hf1 hf2 hf3
  sl_unfold [cc0__conv_kernel]
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (fun y => ⟨_, List.mem_singleton_self _, View.mem_set_unit_zero off4 inb_S2x56x56x256_S2x56x56x256_0_0_0_0 y⟩),
      View.canon_unit_zero off4]
    sl_unfold_run_names
    simp only [View.readCov_cons_toLoadRect]
    simp only [View.readCov_eq_canon', View.readAt_eq_ld]
    rfl
  isplitl [H5]
  · iexists _; iexact H5
  iexists _; iexact H6

/-! ## The pipeline's proof data -/

variable (m : (ℓ : Loc nD τ sig) → Buf (Elt F) ℓ) (ρ : Dev nD → PrngReg)

/-- The proof data of the one pipeline on core `c`: the arrays as the region finds them; after the body at point `t`
    each input's buffer at its block and the output's at `OUT` of the three input blocks; the invariant holds the two
    scratch buffers at anything and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => OUT (iblk m c 0 t) (iblk m c 1 t) (iblk m c 2 t)
  Φ _ := ΦA spec0 c
  q _ := fullShare
  owed _ := 0

theorem A_eq (c : Dev nD) (w : Fin cfg0.W) : (dats m 0 c).A w = V m c (Pipeline.arrRef spec0 w) := rfl

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = OUT (iblk m c 0 t) (iblk m c 1 t) (iblk m c 2 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- A scratch buffer as the invariant holds it and as the body's run names it: one points-to. -/
theorem scr0_eq (c : Dev nD) (f : Buf (Elt F) ((c : Thread nD τ).loc cc0_scratch0)) :
    ((Memref.whole cc0_scratch0 : Memref sig .tc .vmem S2x58x58x128 .bf16).view.loc (c : Thread nD τ)
        ↦[(Memref.whole cc0_scratch0 : Memref sig .tc .vmem S2x58x58x128 .bf16).view.set]{fullShare} f : sProp 𝕄)
      = ((c : Thread nD τ).loc cc0_scratch0) ↦{fullShare} f := by
  simp only [Memref.view_whole, View.set_whole]
theorem scr1_eq (c : Dev nD) (f : Buf (Elt F) ((c : Thread nD τ).loc cc0_scratch1)) :
    ((Memref.whole cc0_scratch1 : Memref sig .tc .vmem S6272x256 .f32).view.loc (c : Thread nD τ)
        ↦[(Memref.whole cc0_scratch1 : Memref sig .tc .vmem S6272x256 .f32).view.set]{fullShare} f : sProp 𝕄)
      = ((c : Thread nD τ).loc cc0_scratch1) ↦{fullShare} f := by
  simp only [Memref.view_whole, View.set_whole]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, the invariant yields the two scratch buffers and
    takes them back, so the body's triple applies; the core's debt and the generator register pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, show (dats m 0 c).Φ t.castSucc = ΦA spec0 c from rfl]
  unfold ΦA
  rw [scopedRest0_eq]
  iintro ⟨⟨⟨⟨%g5, HS5⟩, ⟨%g6, HS6⟩⟩, HR⟩, Ho, ⟨%d0, H0⟩, ⟨%d1, H1⟩, ⟨%d2, H2⟩, ⟨%d3, H3⟩⟩
  iapply (sound_kernel c (grid0.coords t) _ _ _ _ _ _ _ _ (Memref.whole cc0_scratch0) (Memref.isWhole_whole _)
    (Memref.whole cc0_scratch1) (Memref.isWhole_whole _) (iblk m c 0 t) (iblk m c 1 t) (iblk m c 2 t) _)
  isplitl [H0]; · iexact H0
  isplitl [H1]; · iexact H1
  isplitl [H2]; · iexact H2
  isplitl [H3]; · iexists _; iexact H3
  isplitl [HS5]; · iexists g5; rw [scr0_eq]; iexact HS5
  isplitl [HS6]; · iexists g6; rw [scr1_eq]; iexact HS6
  iintro ⟨H0, H1, H2, H3, ⟨%g5', HS5⟩, ⟨%g6', HS6⟩⟩
  isplitl [HS5 HS6 HR]
  · isplitl [HS5 HS6]
    · isplitl [HS5]
      · iexists g5'; rw [← scr0_eq]; iexact HS5
      · iexists g6'; rw [← scr1_eq]; iexact HS6
    iexact HR
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- For any values, from any memory with zero counters: every weakly fair execution of @main terminates, and every
    final state has every array of the pipeline at what the proof data give and every other unscoped buffer as the
    line after the region leaves it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere and leaves its three arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.BlockSpec.lean ====
/-
  The convolution of ONE image block, in the layout the kernel works in.

  An image block `xb` is `[2, 56, 56, 128]` (two images; row, column, channel), the filter `wf` is `[3, 3, 128, 256]`
  (tap row, tap column, channel, output channel), the bias `b` is `[256]`, and the output block is `[2, 56, 56, 256]`.
  The block is padded with one ring of zeros to `58 × 58`; output entry `(p, h, w, o)` is the sum over the nine taps
  `(i, j)` and the 128 channels `c` of `paddedBlk (p, h + i, w + j, c) · wf (i, j, c, o)`, plus `b o`.
-/
import Idealize.ShloMosaic.PureOps.Ideal
import Idealize.ShloMosaic.Lib.ValueIdx

noncomputable section

open scoped BigOperators

namespace Cert.Conv

open Idealize.ShloMosaic Idealize.ShloMosaic.ValueIdx

abbrev XBlk : Shape := ⟨4, ![2, 56, 56, 128]⟩
abbrev WBlk : Shape := ⟨4, ![3, 3, 128, 256]⟩
abbrev BBlk : Shape := ⟨1, ![256]⟩
abbrev OBlk : Shape := ⟨4, ![2, 56, 56, 256]⟩

/-- The image block with one ring of zeros around each 56 × 56 plane: entry `(p, r, s, c)` of the padded block. -/
def paddedBlk (xb : XBlk.Idx → EReal) (p : Fin 2) (r s : Fin 58) (c : Fin 128) : EReal :=
  if h : (1 ≤ r.val ∧ r.val ≤ 56) ∧ (1 ≤ s.val ∧ s.val ≤ 56) then
    xb (ix4 p ⟨r.val - 1, by omega⟩ ⟨s.val - 1, by omega⟩ c)
  else 0

theorem paddedBlk_inside (xb : XBlk.Idx → EReal) (p : Fin 2) (r s : Fin 58) (c : Fin 128)
    (hr : 1 ≤ r.val ∧ r.val ≤ 56) (hs : 1 ≤ s.val ∧ s.val ≤ 56) :
    paddedBlk xb p r s c = xb (ix4 p ⟨r.val - 1, by omega⟩ ⟨s.val - 1, by omega⟩ c) := by
  unfold paddedBlk; rw [dif_pos ⟨hr, hs⟩]

theorem paddedBlk_ring (xb : XBlk.Idx → EReal) (p : Fin 2) (r s : Fin 58) (c : Fin 128)
    (h : ¬ ((1 ≤ r.val ∧ r.val ≤ 56) ∧ (1 ≤ s.val ∧ s.val ≤ 56))) : paddedBlk xb p r s c = 0 := by
  unfold paddedBlk; rw [dif_neg h]

/-- Output entry `(p, h, w, o)` of the block: the nine taps' channel sums, plus the bias of the output channel. -/
def convBlk (xb : XBlk.Idx → EReal) (wf : WBlk.Idx → EReal) (b : BBlk.Idx → EReal)
    (p : Fin 2) (h w : Fin 56) (o : Fin 256) : EReal :=
  (∑ i : Fin 3, ∑ j : Fin 3, ∑ c : Fin 128,
      paddedBlk xb p ⟨h.val + i.val, by omega⟩ ⟨w.val + j.val, by omega⟩ c * wf (ix4 i j c o)) + b (ix1 o)

end Cert.Conv

end
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.BodyValue.lean ====
/-
  The body's output block at the ideal values, entry by entry: the block convolution `Cert.Conv.convBlk` of the three
  input blocks.

  The padded scratch reads as the image block shifted by one inside the ring and zero on it; the window a tap loads is
  the scratch at the tap's offset; each product into the zero accumulator is the sum over the 128 channels; the nine
  accumulator updates add the nine taps in order; the bias is added along the rows.
-/
import proofs.«171183_j29085518529124_1_alg».proof.Proof.BodyIdeal
import proofs.«171183_j29085518529124_1_alg».proof.Proof.BlockSpec
import proofs.«171183_j29085518529124_1_alg».proof.Proof.LibRowDims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BodyValue

open Cert.KernelIdeal Cert.KernelIdeal.Gen Cert.KernelIdeal.Body
open Idealize.ShloMosaic Idealize.ShloMosaic.ValueIdx
open Idealize.ShloMosaic.TcCoe
open Idealize.SL Idealize.SL.Sem
open scoped BigOperators

/-! ## One accumulator update: a product of flattened operands into the zero accumulator, added -/

/-- The row of the flattened block that holds pixel `(p, h, w)`. -/
def row (p : Fin 2) (h w : Fin 56) : Fin 6272 := ⟨(p.val * 56 + h.val) * 56 + w.val, by omega⟩

/-- The flattened window at row `(p, h, w)`, channel `c`, is the window at `(p, h, w, c)`. -/
theorem flat_apply (t : S2x56x56x128.Idx → EReal) (hc : S2x56x56x128.ShapeCasts S6272x128) (p : Fin 2) (h w : Fin 56) (c : Fin 128) :
    shapeCast S6272x128 t hc (ix2 (row p h w) c) = t (ix4 p h w c) :=
  shapeCast_apply t hc _ _ (by
    rw [Shape.rowMajor_val_four, Shape.rowMajor_val_two]
    rfl)

/-- The filter slice as a matrix at `(c, o)` is the slice at `(0, 0, c, o)`. -/
theorem wmat_apply (t : S1x1x128x256.Idx → EReal) (hc : S1x1x128x256.ShapeCasts S128x256) (c : Fin 128) (o : Fin 256) :
    shapeCast S128x256 t hc (ix2 c o) = t (ix4 (0 : Fin 1) (0 : Fin 1) c o) :=
  shapeCast_apply t hc _ _ (by
    rw [Shape.rowMajor_val_four, Shape.rowMajor_val_two]
    show ((0 * 1 + 0) * 128 + c.val) * 256 + o.val = c.val * 256 + o.val
    omega)

/-- One accumulator update on flattened operands: the accumulator plus the sum over the channels. -/
theorem step_flat (lhs : FVec Ideal S6272x128 .bf16) (rhs : FVec Ideal S128x256 .bf16) (acc : FVec Ideal S6272x256 .f32)
    (q : Fin 6272) (o : Fin 256) :
    shapeCast S6272x256 (addf acc (matmul dot_S6272x128_S128x256_S6272x256_1_0_0_1_n_n none lhs rhs
        (constant S6272x256 .f32 0x00000000#32))) shapeCasts_S6272x256_S6272x256 (ix2 q o)
      = acc (ix2 q o) + ∑ c : Fin 128, lhs (ix2 q c) * rhs (ix2 c o) := by
  rw [shapeCast_self, addf_apply]
  congr 1
  exact RowDims.matmul_plain_zero_apply (M := 6272) (K := 128) (N := 256) none lhs rhs q o

/-- One accumulator update on a window and a filter slice: at row `(p, h, w)` and output channel `o`, the accumulator
    plus the sum over the channels of window times slice. -/
theorem step_full (tap : FVec Ideal S2x56x56x128 .bf16) (ws : FVec Ideal S1x1x128x256 .bf16) (acc : FVec Ideal S6272x256 .f32)
    (p : Fin 2) (h w : Fin 56) (o : Fin 256) :
    shapeCast S6272x256 (addf acc (matmul dot_S6272x128_S128x256_S6272x256_1_0_0_1_n_n none
        (shapeCast S6272x128 tap shapeCasts_S2x56x56x128_S6272x128) (shapeCast S128x256 ws shapeCasts_S1x1x128x256_S128x256)
        (constant S6272x256 .f32 0x00000000#32))) shapeCasts_S6272x256_S6272x256 (ix2 (row p h w) o)
      = acc (ix2 (row p h w) o) + ∑ c : Fin 128, tap (ix4 p h w c) * ws (ix4 (0 : Fin 1) (0 : Fin 1) c o) :=
  (step_flat _ _ acc (row p h w) o).trans
    (congrArg (acc (ix2 (row p h w) o) + ·) (Finset.sum_congr rfl fun c _ => by rw [flat_apply, wmat_apply]))

/-! ## The padded scratch -/

/-- The bf16 zero word denotes zero. -/
theorem ofBits_zero_bf16 : Ideal.ofBits .bf16 0x0000#16 = 0 := by simp [Ideal.ofBits, Ideal.ieee]

/-- The zero fill is zero at every index. -/
theorem zeros_apply (y : S2x58x58x128.Idx) : k0_pay3 (F := Ideal) y = 0 := by
  show shapeCast S2x58x58x128 (broadcast S2x58x58x128 (Scalar.ofBits (F := Ideal) .bf16 0x0000#16))
    shapeCasts_S2x58x58x128_S2x58x58x128 y = 0
  rw [shapeCast_self]
  exact ofBits_zero_bf16

/-- What the zero fill alone leaves in the scratch is zero at every index. -/
theorem zeroFill_apply (y : S2x58x58x128.Idx) :
    View.canon [(⟨rPad, k0_pay3 (F := Ideal)⟩ : View.Piece (Elt Ideal) S2x58x58x128 .bf16)] y = 0 := by
  rw [View.canon_unit_zero off4]
  exact zeros_apply y

/-- The stored image block is the image block. -/
theorem stored_eq (x : Vec Ideal S2x56x56x128 .bf16) : k0_pay4 (View.ld x rX) = x :=
  (shapeCast_self _ _).trans ((shapeCast_self _ _).trans (View.ld_unit_zero off4 _ x))

/-- The scratch's contents: the image block shifted by one inside the ring of zeros. -/
theorem padV_apply (x : Vec Ideal S2x56x56x128 .bf16) (p : Fin 2) (r s : Fin 58) (c : Fin 128) :
    padV x (ix4 p r s c) = Cert.Conv.paddedBlk x p r s c := by
  unfold padV padPieces
  by_cases hr : 1 ≤ r.val ∧ r.val ≤ 56
  · -- a row the second store wrote: the index is under that store's rectangle
    have hy : (ix4 p r s c : S2x58x58x128.Idx) = rRows.emb (ix4 p (⟨r.val - 1, by omega⟩ : Fin 56) s c) := by
      funext a; refine Fin.ext ?_
      match a with
      | ⟨0, _⟩ => show p.val = 0 + 1 * p.val; omega
      | ⟨1, _⟩ => show r.val = 1 + 1 * (r.val - 1); omega
      | ⟨2, _⟩ => show s.val = 0 + 1 * s.val; omega
      | ⟨3, _⟩ => show c.val = 0 + 1 * c.val; omega
    refine (congrArg _ hy).trans ?_
    refine (View.canon_cons_emb _ _ _ _).trans ?_
    unfold updateSlice
    by_cases hs : 1 ≤ s.val ∧ s.val ≤ 56
    · -- a column inside the block's window: the image block, shifted
      have hin : ∀ a : Fin S2x56x58x128.rank, (![0, 0, 1, 0] : Fin 4 → Nat) a ≤ ((ix4 p (⟨r.val - 1, by omega⟩ : Fin 56) s c : S2x56x58x128.Idx) a).val
          ∧ ((ix4 p (⟨r.val - 1, by omega⟩ : Fin 56) s c : S2x56x58x128.Idx) a).val
            < (![0, 0, 1, 0] : Fin 4 → Nat) a + S2x56x56x128.size (a.cast slices_S2x56x58x128_S2x56x56x128_0_0_1_0.1.symm) := by
        intro a
        match a with
        | ⟨0, _⟩ => show 0 ≤ p.val ∧ p.val < 0 + 2; omega
        | ⟨1, _⟩ => show 0 ≤ r.val - 1 ∧ r.val - 1 < 0 + 56; omega
        | ⟨2, _⟩ => show 1 ≤ s.val ∧ s.val < 1 + 56; omega
        | ⟨3, _⟩ => show 0 ≤ c.val ∧ c.val < 0 + 128; omega
      rw [dif_pos hin, Cert.Conv.paddedBlk_inside x p r s c hr hs, stored_eq]
      refine congrArg x (funext fun b => Fin.ext ?_)
      match b with
      | ⟨0, _⟩ => show p.val - 0 = p.val; omega
      | ⟨1, _⟩ => show r.val - 1 - 0 = r.val - 1; omega
      | ⟨2, _⟩ => show s.val - 1 = s.val - 1; rfl
      | ⟨3, _⟩ => show c.val - 0 = c.val; omega
    · -- columns 0 and 57: what the zero fill left
      have hout : ¬ ∀ a : Fin S2x56x58x128.rank, (![0, 0, 1, 0] : Fin 4 → Nat) a ≤ ((ix4 p (⟨r.val - 1, by omega⟩ : Fin 56) s c : S2x56x58x128.Idx) a).val
          ∧ ((ix4 p (⟨r.val - 1, by omega⟩ : Fin 56) s c : S2x56x58x128.Idx) a).val
            < (![0, 0, 1, 0] : Fin 4 → Nat) a + S2x56x56x128.size (a.cast slices_S2x56x58x128_S2x56x56x128_0_0_1_0.1.symm) := by
        intro hin
        have h2 := hin ⟨2, by decide⟩
        have h2' : 1 ≤ s.val ∧ s.val < 1 + 56 := h2
        exact hs (by omega)
      rw [dif_neg hout, Cert.Conv.paddedBlk_ring x p r s c (fun h => hs h.2)]
      exact zeroFill_apply _
  · -- rows 0 and 57: only the zero fill reaches them
    have hnm : (ix4 p r s c : S2x58x58x128.Idx) ∉ rRows.set := by
      intro hm
      have h1 := (Rect.mem_set_unit.mp hm) ⟨1, by decide⟩
      have h1' : 1 ≤ r.val ∧ r.val < 1 + 56 := h1
      exact hr (by omega)
    refine (View.canon_cons_of_not_mem (⟨rRows, _⟩ : View.Piece (Elt Ideal) S2x58x58x128 .bf16) _ hnm).trans ?_
    rw [Cert.Conv.paddedBlk_ring x p r s c (fun h => hr h.1)]
    exact zeroFill_apply _

/-! ## The nine taps, and the output entry -/

/-- The window of tap `(i, j)` at `(p, h, w, c)` is the scratch at `(p, h + i, w + j, c)`: the padded block there. -/
theorem tap_apply (x : Vec Ideal S2x56x56x128 .bf16) (i j : Fin 3)
    (inb : ∀ a, (![0, i.val, j.val, 0] : Fin 4 → Nat) a + S2x56x56x128.size a ≤ S2x58x58x128.size a)
    (p : Fin 2) (h w : Fin 56) (c : Fin 128) :
    tapV x (Rect.unit (s := S2x58x58x128) ![0, i.val, j.val, 0] S2x56x56x128.size inb) (ix4 p h w c)
      = Cert.Conv.paddedBlk x p ⟨h.val + i.val, by omega⟩ ⟨w.val + j.val, by omega⟩ c := by
  refine Eq.trans ?_ (padV_apply x p ⟨h.val + i.val, by omega⟩ ⟨w.val + j.val, by omega⟩ c)
  unfold tapV padV
  refine congrArg _ (funext fun a => Fin.ext ?_)
  match a with
  | ⟨0, _⟩ => show 0 + 1 * p.val = p.val; omega
  | ⟨1, _⟩ => show i.val + 1 * h.val = h.val + i.val; omega
  | ⟨2, _⟩ => show j.val + 1 * w.val = w.val + j.val; omega
  | ⟨3, _⟩ => show 0 + 1 * c.val = c.val; omega

/-- The filter slice of tap `(i, j)` at `(0, 0, c, o)` is the filter at `(i, j, c, o)`. -/
theorem wslice_apply (wf : Vec Ideal S3x3x128x256 .bf16) (i j : Fin 3)
    (inb : ∀ a, (![i.val, j.val, 0, 0] : Fin 4 → Nat) a + S1x1x128x256.size a ≤ S3x3x128x256.size a)
    (c : Fin 128) (o : Fin 256) :
    View.ld wf (Rect.unit (s := S3x3x128x256) ![i.val, j.val, 0, 0] S1x1x128x256.size inb) (ix4 (0 : Fin 1) (0 : Fin 1) c o)
      = wf (ix4 i j c o) := by
  refine congrArg wf (funext fun a => Fin.ext ?_)
  match a with
  | ⟨0, _⟩ => show i.val + 1 * 0 = i.val; omega
  | ⟨1, _⟩ => show j.val + 1 * 0 = j.val; omega
  | ⟨2, _⟩ => show 0 + 1 * c.val = c.val; omega
  | ⟨3, _⟩ => show 0 + 1 * o.val = o.val; omega

/-- Tap `(i, j)`'s share of output entry `(p, h, w, o)`: the sum over the 128 channels. -/
def tapSum (x : Vec Ideal S2x56x56x128 .bf16) (wf : Vec Ideal S3x3x128x256 .bf16) (p : Fin 2) (h w : Fin 56) (o : Fin 256)
    (i j : Fin 3) : EReal :=
  ∑ c : Fin 128, Cert.Conv.paddedBlk x p ⟨h.val + i.val, by omega⟩ ⟨w.val + j.val, by omega⟩ c * wf (ix4 i j c o)

/-- The channel sum of tap `(i, j)`'s window against its filter slice is that tap's share. -/
theorem tapSum_eq (x : Vec Ideal S2x56x56x128 .bf16) (wf : Vec Ideal S3x3x128x256 .bf16) (i j : Fin 3)
    (inbT : ∀ a, (![0, i.val, j.val, 0] : Fin 4 → Nat) a + S2x56x56x128.size a ≤ S2x58x58x128.size a)
    (inbW : ∀ a, (![i.val, j.val, 0, 0] : Fin 4 → Nat) a + S1x1x128x256.size a ≤ S3x3x128x256.size a)
    (p : Fin 2) (h w : Fin 56) (o : Fin 256) :
    ∑ c : Fin 128, tapV x (Rect.unit (s := S2x58x58x128) ![0, i.val, j.val, 0] S2x56x56x128.size inbT) (ix4 p h w c)
        * View.ld wf (Rect.unit (s := S3x3x128x256) ![i.val, j.val, 0, 0] S1x1x128x256.size inbW) (ix4 (0 : Fin 1) (0 : Fin 1) c o)
      = tapSum x wf p h w o i j :=
  Finset.sum_congr rfl fun c _ => by rw [tap_apply, wslice_apply]

/-- The zeroed accumulator is zero at every index. -/
theorem accZero_apply (y : S6272x256.Idx) : k0_pay5 (F := Ideal) y = 0 := by
  show shapeCast S6272x256 (broadcast S6272x256 (Scalar.ofBits (F := Ideal) .f32 0x00000000#32))
    shapeCasts_S6272x256_S6272x256 y = 0
  rw [shapeCast_self]
  exact Ideal.ofBits_zero_f32

/-- The accumulator after the first tap. -/
theorem acc1_apply (x : Vec Ideal S2x56x56x128 .bf16) (wf : Vec Ideal S3x3x128x256 .bf16) (p : Fin 2) (h w : Fin 56) (o : Fin 256) :
    acc1 x wf (ix2 (row p h w) o) = tapSum x wf p h w o 0 0 := by
  refine (step_full (tapV x rT00) (View.ld wf rW00) k0_pay5 p h w o).trans ?_
  rw [accZero_apply, zero_add]
  exact tapSum_eq x wf 0 0 _ _ p h w o

/-- The accumulator after tap `(0, 1)`. -/
theorem acc2_apply (x : Vec Ideal S2x56x56x128 .bf16) (wf : Vec Ideal S3x3x128x256 .bf16) (p : Fin 2) (h w : Fin 56) (o : Fin 256) :
    acc2 x wf (ix2 (row p h w) o) = acc1 x wf (ix2 (row p h w) o) + tapSum x wf p h w o 0 1 :=
  (step_full (tapV x rT01) (View.ld wf rW01) (acc1 x wf) p h w o).trans
    (congrArg (acc1 x wf (ix2 (row p h w) o) + ·) (tapSum_eq x wf 0 1 _ _ p h w o))

/-- The accumulator after tap `(0, 2)`. -/
theorem acc3_apply (x : Vec Ideal S2x56x56x128 .bf16) (wf : Vec Ideal S3x3x128x256 .bf16) (p : Fin 2) (h w : Fin 56) (o : Fin 256) :
    acc3 x wf (ix2 (row p h w) o) = acc2 x wf (ix2 (row p h w) o) + tapSum x wf p h w o 0 2 :=
  (step_full (tapV x rT02) (View.ld wf rW02) (acc2 x wf) p h w o).trans
    (congrArg (acc2 x wf (ix2 (row p h w) o) + ·) (tapSum_eq x wf 0 2 _ _ p h w o))

/-- The accumulator after tap `(1, 0)`. -/
theorem acc4_apply (x : Vec Ideal S2x56x56x128 .bf16) (wf : Vec Ideal S3x3x128x256 .bf16) (p : Fin 2) (h w : Fin 56) (o : Fin 256) :
    acc4 x wf (ix2 (row p h w) o) = acc3 x wf (ix2 (row p h w) o) + tapSum x wf p h w o 1 0 :=
  (step_full (tapV x rT10) (View.ld wf rW10) (acc3 x wf) p h w o).trans
    (congrArg (acc3 x wf (ix2 (row p h w) o) + ·) (tapSum_eq x wf 1 0 _ _ p h w o))

/-- The accumulator after tap `(1, 1)`. -/
theorem acc5_apply (x : Vec Ideal S2x56x56x128 .bf16) (wf : Vec Ideal S3x3x128x256 .bf16) (p : Fin 2) (h w : Fin 56) (o : Fin 256) :
    acc5 x wf (ix2 (row p h w) o) = acc4 x wf (ix2 (row p h w) o) + tapSum x wf p h w o 1 1 :=
  (step_full (tapV x rT11) (View.ld wf rW11) (acc4 x wf) p h w o).trans
    (congrArg (acc4 x wf (ix2 (row p h w) o) + ·) (tapSum_eq x wf 1 1 _ _ p h w o))

/-- The accumulator after tap `(1, 2)`. -/
theorem acc6_apply (x : Vec Ideal S2x56x56x128 .bf16) (wf : Vec Ideal S3x3x128x256 .bf16) (p : Fin 2) (h w : Fin 56) (o : Fin 256) :
    acc6 x wf (ix2 (row p h w) o) = acc5 x wf (ix2 (row p h w) o) + tapSum x wf p h w o 1 2 :=
  (step_full (tapV x rT12) (View.ld wf rW12) (acc5 x wf) p h w o).trans
    (congrArg (acc5 x wf (ix2 (row p h w) o) + ·) (tapSum_eq x wf 1 2 _ _ p h w o))

/-- The accumulator after tap `(2, 0)`. -/
theorem acc7_apply (x : Vec Ideal S2x56x56x128 .bf16) (wf : Vec Ideal S3x3x128x256 .bf16) (p : Fin 2) (h w : Fin 56) (o : Fin 256) :
    acc7 x wf (ix2 (row p h w) o) = acc6 x wf (ix2 (row p h w) o) + tapSum x wf p h w o 2 0 :=
  (step_full (tapV x rT20) (View.ld wf rW20) (acc6 x wf) p h w o).trans
    (congrArg (acc6 x wf (ix2 (row p h w) o) + ·) (tapSum_eq x wf 2 0 _ _ p h w o))

/-- The accumulator after tap `(2, 1)`. -/
theorem acc8_apply (x : Vec Ideal S2x56x56x128 .bf16) (wf : Vec Ideal S3x3x128x256 .bf16) (p : Fin 2) (h w : Fin 56) (o : Fin 256) :
    acc8 x wf (ix2 (row p h w) o) = acc7 x wf (ix2 (row p h w) o) + tapSum x wf p h w o 2 1 :=
  (step_full (tapV x rT21) (View.ld wf rW21) (acc7 x wf) p h w o).trans
    (congrArg (acc7 x wf (ix2 (row p h w) o) + ·) (tapSum_eq x wf 2 1 _ _ p h w o))

/-- The accumulator after tap `(2, 2)`. -/
theorem acc9_apply (x : Vec Ideal S2x56x56x128 .bf16) (wf : Vec Ideal S3x3x128x256 .bf16) (p : Fin 2) (h w : Fin 56) (o : Fin 256) :
    acc9 x wf (ix2 (row p h w) o) = acc8 x wf (ix2 (row p h w) o) + tapSum x wf p h w o 2 2 :=
  (step_full (tapV x rT22) (View.ld wf rW22) (acc8 x wf) p h w o).trans
    (congrArg (acc8 x wf (ix2 (row p h w) o) + ·) (tapSum_eq x wf 2 2 _ _ p h w o))

/-- The bias load's offset is zero. -/
theorem off1 : (![0] : Fin 1 → ℕ) = fun _ => 0 := funext fun a => by fin_cases a; rfl

/-- The body's output block is the block convolution of its input blocks. -/
theorem OUT_apply (x : Vec Ideal S2x56x56x128 .bf16) (wf : Vec Ideal S3x3x128x256 .bf16) (b : Vec Ideal S256 .f32)
    (p : Fin 2) (h w : Fin 56) (o : Fin 256) :
    OUT (F := Ideal) x wf b (ix4 p h w o) = Cert.Conv.convBlk x wf b p h w o := by
  -- the output entry is the accumulator's entry at the pixel's row, plus the bias of the output channel
  have hout : OUT (F := Ideal) x wf b (ix4 p h w o) = acc9 x wf (ix2 (row p h w) o) + b (ix1 o) := by
    show shapeCast S2x56x56x256 (addf (acc9 x wf) (broadcastTo S6272x256
        (shapeCast S1x256 (View.ld b rB) shapeCasts_S256_S1x256) broadcasts_S1x256_S6272x256))
      shapeCasts_S6272x256_S2x56x56x256 (ix4 p h w o) = _
    refine (shapeCast_apply _ _ (ix4 p h w o) (ix2 (row p h w) o) ?_).trans ?_
    · rw [Shape.rowMajor_val_two, Shape.rowMajor_val_four]; rfl
    rw [addf_apply, broadcastTo_1b_ab_apply, shapeCast_a_1a_apply, View.ld_unit_zero off1]
  -- the nine updates add the nine taps' shares in order
  rw [hout, acc9_apply, acc8_apply, acc7_apply, acc6_apply, acc5_apply, acc4_apply, acc3_apply, acc2_apply, acc1_apply]
  show _ = (∑ i : Fin 3, ∑ j : Fin 3, tapSum x wf p h w o i j) + b (ix1 o)
  simp only [Fin.sum_univ_three, add_assoc]

end Cert.KernelIdeal.BodyValue

end
-- ==== Proof.ConvSpec.lean ====
/-
  The convolution both programs compute, as one function of the three argument arrays, entry by entry.

  The image `x` is `[32, 128, 56, 56]` (batch, channel, row, column), the filter `wt` is `[256, 128, 3, 3]`
  (output channel, channel, tap row, tap column) and the bias `b` is `[256]`. The image is padded with one ring of
  zeros to `58 × 58`; output entry `(n, o, h, w)` is the sum over the nine taps `(i, j)` and the 128 channels `c` of
  `padded (n, c, h + i, w + j) · wt (o, c, i, j)`, plus `b o`.

  A sum over a flattened feature index `k = 9 c + 3 i + j` of 1152 features is the same sum, regrouped by tap first:
  addition of extended reals is commutative and associative, so no finiteness is needed.
-/
import Idealize.ShloMosaic.PureOps.Ideal
import Idealize.ShloMosaic.Lib.ValueIdx

noncomputable section

open scoped BigOperators

namespace Cert.Conv

open Idealize.ShloMosaic Idealize.ShloMosaic.ValueIdx

abbrev XShape : Shape := ⟨4, ![32, 128, 56, 56]⟩
abbrev WShape : Shape := ⟨4, ![256, 128, 3, 3]⟩
abbrev BShape : Shape := ⟨1, ![256]⟩
abbrev OShape : Shape := ⟨4, ![32, 256, 56, 56]⟩

/-- The image with one ring of zeros around each 56 × 56 plane: entry `(n, c, r, s)` of the 58 × 58 padded plane. -/
def padded (x : XShape.Idx → EReal) (n : Fin 32) (c : Fin 128) (r s : Fin 58) : EReal :=
  if h : (1 ≤ r.val ∧ r.val ≤ 56) ∧ (1 ≤ s.val ∧ s.val ≤ 56) then
    x (ix4 n c ⟨r.val - 1, by omega⟩ ⟨s.val - 1, by omega⟩)
  else 0

/-- Inside the ring the padded plane is the image, shifted by one. -/
theorem padded_inside (x : XShape.Idx → EReal) (n : Fin 32) (c : Fin 128) (r s : Fin 58)
    (hr : 1 ≤ r.val ∧ r.val ≤ 56) (hs : 1 ≤ s.val ∧ s.val ≤ 56) :
    padded x n c r s = x (ix4 n c ⟨r.val - 1, by omega⟩ ⟨s.val - 1, by omega⟩) := by
  unfold padded; rw [dif_pos ⟨hr, hs⟩]

/-- On the ring it is zero. -/
theorem padded_ring (x : XShape.Idx → EReal) (n : Fin 32) (c : Fin 128) (r s : Fin 58)
    (h : ¬ ((1 ≤ r.val ∧ r.val ≤ 56) ∧ (1 ≤ s.val ∧ s.val ≤ 56))) : padded x n c r s = 0 := by
  unfold padded; rw [dif_neg h]

/-- Tap `(i, j)` of output entry `(n, o, h, w)`: the 128 channels' products at the shifted position. -/
def tap (x : XShape.Idx → EReal) (wt : WShape.Idx → EReal) (n : Fin 32) (o : Fin 256) (h w : Fin 56) (i j : Fin 3) : EReal :=
  ∑ c : Fin 128, padded x n c ⟨h.val + i.val, by omega⟩ ⟨w.val + j.val, by omega⟩ * wt (ix4 o c i j)

/-- Output entry `(n, o, h, w)`: the nine taps, plus the bias of the output channel. -/
def conv (x : XShape.Idx → EReal) (wt : WShape.Idx → EReal) (b : BShape.Idx → EReal)
    (n : Fin 32) (o : Fin 256) (h w : Fin 56) : EReal :=
  (∑ i : Fin 3, ∑ j : Fin 3, tap x wt n o h w i j) + b (ix1 o)

/-- The whole result array. -/
def convArr (x : XShape.Idx → EReal) (wt : WShape.Idx → EReal) (b : BShape.Idx → EReal) : OShape.Idx → EReal :=
  fun y => conv x wt b (y 0) (y 1) (y 2) (y 3)

theorem convArr_apply (x : XShape.Idx → EReal) (wt : WShape.Idx → EReal) (b : BShape.Idx → EReal)
    (n : Fin 32) (o : Fin 256) (h w : Fin 56) : convArr x wt b (ix4 n o h w) = conv x wt b n o h w := rfl

end Cert.Conv

end
-- ==== Proof.KernelBlocks.lean ====
/-
  The three input blocks of a grid point, read back to the program's arguments.

  Before the region the host transposes the image to `[32, 56, 56, 128]` and the filter to `[3, 3, 128, 256]` (the
  conversions to the narrower float format are the identity on ideal values). Grid point `t` takes images `2 t` and
  `2 t + 1`, the whole filter and the whole bias. So the block convolution of the blocks at point `t` is the
  convolution of the arguments at images `2 t + p`.
-/
import proofs.«171183_j29085518529124_1_alg».proof.Proof.BodyIdeal
import proofs.«171183_j29085518529124_1_alg».proof.Proof.ConvSpec
import proofs.«171183_j29085518529124_1_alg».proof.Proof.BlockSpec
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen Cert.KernelIdeal.Body
open Idealize.ShloMosaic Idealize.ShloMosaic.ValueIdx
open Idealize.ShloMosaic.TcCoe
open Idealize.SL Idealize.SL.Sem
open scoped BigOperators

variable (m : (ℓ : Loc nD τ sig) → Buf (Elt Ideal) ℓ)

/-- The three arguments as launched, and the three input blocks at a grid point, each at its literal type. -/
abbrev xarr (c : Dev nD) : Vec Ideal S32x128x56x56 .f32 := m ((c : Thread nD τ).loc main_arg0)
abbrev warr (c : Dev nD) : Vec Ideal S256x128x3x3 .f32 := m ((c : Thread nD τ).loc main_arg1)
abbrev barr (c : Dev nD) : Vec Ideal S256 .f32 := m ((c : Thread nD τ).loc main_arg2)
abbrev xblk (c : Dev nD) (t : Fin cfg0.N) : Vec Ideal S2x56x56x128 .bf16 := iblk m c 0 t
abbrev wblk (c : Dev nD) (t : Fin cfg0.N) : Vec Ideal S3x3x128x256 .bf16 := iblk m c 1 t
abbrev bblk (c : Dev nD) (t : Fin cfg0.N) : Vec Ideal S256 .f32 := iblk m c 2 t

/-- Image `2 t + p`: the `p`-th image of grid point `t`'s block. -/
def image (t : Fin cfg0.N) (p : Fin 2) : Fin 32 :=
  ⟨2 * t.val + p.val, by have h : t.val < 16 := lt_of_lt_of_eq t.isLt N_0; omega⟩

theorem image_val (t : Fin cfg0.N) (p : Fin 2) : (image t p).val = 2 * t.val + p.val := rfl

/-! ## The arrays the region finds: the host lines before it, read at an index -/

/-- The image array the region finds: the argument transposed to channels last, then narrowed. -/
theorem V_v1 (c : Dev nD) :
    (V m c main_v1 : Vec Ideal S32x56x56x128 .bf16)
      = truncf (F := Ideal) .bf16 (transpose S32x56x56x128 [0, 2, 3, 1] (xarr m c) transposes_S32x128x56x56_S32x56x56x128_0_2_3_1) bitsLt_bf16_f32 := by
  show StableHlo.after hostOps0 (fun b => m (c, b)) (Proc.devRef .tc main_v1) = _
  after_results

/-- The filter array the region finds: the argument transposed to taps first, then narrowed. -/
theorem V_v3 (c : Dev nD) :
    (V m c main_v3 : Vec Ideal S3x3x128x256 .bf16)
      = truncf (F := Ideal) .bf16 (transpose S3x3x128x256 [2, 3, 1, 0] (warr m c) transposes_S256x128x3x3_S3x3x128x256_2_3_1_0) bitsLt_bf16_f32 := by
  show StableHlo.after hostOps0 (fun b => m (c, b)) (Proc.devRef .tc main_v3) = _
  after_results

/-- Entry `(n, h, w, ch)` of the image array is entry `(n, ch, h, w)` of the argument. -/
theorem V_v1_apply (c : Dev nD) (n : Fin 32) (h w : Fin 56) (ch : Fin 128) :
    (V m c main_v1 : Vec Ideal S32x56x56x128 .bf16) (ix4 n h w ch) = xarr m c (ix4 n ch h w) := by
  rw [V_v1]
  refine (truncf_apply (φ := .f32) (ψ := .bf16) _ bitsLt_bf16_f32 _).trans ?_
  exact transpose_apply _ _ _ _ _ fun b => match b with | ⟨0, _⟩ => rfl | ⟨1, _⟩ => rfl | ⟨2, _⟩ => rfl | ⟨3, _⟩ => rfl

/-- Entry `(i, j, ch, o)` of the filter array is entry `(o, ch, i, j)` of the argument. -/
theorem V_v3_apply (c : Dev nD) (i j : Fin 3) (ch : Fin 128) (o : Fin 256) :
    (V m c main_v3 : Vec Ideal S3x3x128x256 .bf16) (ix4 i j ch o) = warr m c (ix4 o ch i j) := by
  rw [V_v3]
  refine (truncf_apply (φ := .f32) (ψ := .bf16) _ bitsLt_bf16_f32 _).trans ?_
  exact transpose_apply _ _ _ _ _ fun b => match b with | ⟨0, _⟩ => rfl | ⟨1, _⟩ => rfl | ⟨2, _⟩ => rfl | ⟨3, _⟩ => rfl

/-! ## The blocks: where a block's entry sits in its array -/

/-- The image window's block index at point `t`: block `t` along the images, the whole extent on the other axes. -/
theorem index_x : ∀ t : Fin grid0.N,
    win0_0.index t 0 = t.val ∧ win0_0.index t 1 = 0 ∧ win0_0.index t 2 = 0 ∧ win0_0.index t 3 = 0 := by
  decide +kernel

/-- The filter window's block index is zero on every axis, at every point. -/
theorem index_w : ∀ t : Fin grid0.N,
    win0_1.index t 0 = 0 ∧ win0_1.index t 1 = 0 ∧ win0_1.index t 2 = 0 ∧ win0_1.index t 3 = 0 := by
  decide +kernel

/-- The bias window's block index is zero, at every point. -/
theorem index_b : ∀ t : Fin grid0.N, win0_2.index t 0 = 0 := by
  decide +kernel

/-- The image block at point `t`: images `2 t`, `2 t + 1` of the argument, channels last. -/
theorem xblk_apply (c : Dev nD) (t : Fin cfg0.N) (p : Fin 2) (h w : Fin 56) (ch : Fin 128) :
    xblk m c t (ix4 p h w ch) = xarr m c (ix4 (image t p) ch h w) := by
  refine Eq.trans ?_ (V_v1_apply m c (image t p) h w ch)
  show V m c main_v1 (((cfg0.win 0).blk t).view.emb (ix4 p h w ch)) = V m c main_v1 (ix4 (image t p) h w ch)
  refine congrArg _ (funext fun a => Fin.ext ?_)
  obtain ⟨h0, h1, h2, h3⟩ := index_x t
  match a with
  | ⟨0, _⟩ => show win0_0.index t 0 * 2 + 1 * p.val = 2 * t.val + p.val; rw [h0]; omega
  | ⟨1, _⟩ => show win0_0.index t 1 * 56 + 1 * h.val = h.val; rw [h1]; omega
  | ⟨2, _⟩ => show win0_0.index t 2 * 56 + 1 * w.val = w.val; rw [h2]; omega
  | ⟨3, _⟩ => show win0_0.index t 3 * 128 + 1 * ch.val = ch.val; rw [h3]; omega

/-- The filter block at any point: the whole filter, taps first. -/
theorem wblk_apply (c : Dev nD) (t : Fin cfg0.N) (i j : Fin 3) (ch : Fin 128) (o : Fin 256) :
    wblk m c t (ix4 i j ch o) = warr m c (ix4 o ch i j) := by
  refine Eq.trans ?_ (V_v3_apply m c i j ch o)
  show V m c main_v3 (((cfg0.win 1).blk t).view.emb (ix4 i j ch o)) = V m c main_v3 (ix4 i j ch o)
  refine congrArg _ (funext fun a => Fin.ext ?_)
  obtain ⟨h0, h1, h2, h3⟩ := index_w t
  match a with
  | ⟨0, _⟩ => show win0_1.index t 0 * 3 + 1 * i.val = i.val; rw [h0]; omega
  | ⟨1, _⟩ => show win0_1.index t 1 * 3 + 1 * j.val = j.val; rw [h1]; omega
  | ⟨2, _⟩ => show win0_1.index t 2 * 128 + 1 * ch.val = ch.val; rw [h2]; omega
  | ⟨3, _⟩ => show win0_1.index t 3 * 256 + 1 * o.val = o.val; rw [h3]; omega

/-- The bias block at any point: the whole bias. -/
theorem bblk_apply (c : Dev nD) (t : Fin cfg0.N) (o : Fin 256) :
    bblk m c t (ix1 o) = barr m c (ix1 o) := by
  refine Eq.trans ?_ (congrFun (V_main_arg2 m c) (ix1 o))
  show V m c main_arg2 (((cfg0.win 2).blk t).view.emb (ix1 o)) = V m c main_arg2 (ix1 o)
  refine congrArg _ (funext fun a => Fin.ext ?_)
  match a with
  | ⟨0, _⟩ => show win0_2.index t 0 * 256 + 1 * o.val = o.val; rw [index_b t]; omega

/-! ## The block convolution at a point -/

/-- The padded block at point `t` is the padded argument at image `2 t + p`: inside the ring both read the same
    entry of the argument, on the ring both are zero. -/
theorem paddedBlk_blocks (c : Dev nD) (t : Fin cfg0.N) (p : Fin 2) (r s : Fin 58) (ch : Fin 128) :
    Cert.Conv.paddedBlk (xblk m c t) p r s ch = Cert.Conv.padded (xarr m c) (image t p) ch r s := by
  by_cases hrs : (1 ≤ r.val ∧ r.val ≤ 56) ∧ (1 ≤ s.val ∧ s.val ≤ 56)
  · refine (Cert.Conv.paddedBlk_inside (xblk m c t) p r s ch hrs.1 hrs.2).trans ?_
    refine Eq.trans ?_ (Cert.Conv.padded_inside (xarr m c) (image t p) ch r s hrs.1 hrs.2).symm
    exact xblk_apply m c t p _ _ ch
  · exact (Cert.Conv.paddedBlk_ring (xblk m c t) p r s ch hrs).trans
      (Cert.Conv.padded_ring (xarr m c) (image t p) ch r s hrs).symm

/-- The block convolution of the blocks at point `t` is the convolution of the arguments at images `2 t + p`. -/
theorem convBlk_blocks (c : Dev nD) (t : Fin cfg0.N) (p : Fin 2) (h w : Fin 56) (o : Fin 256) :
    Cert.Conv.convBlk (xblk m c t) (wblk m c t) (bblk m c t) p h w o
      = Cert.Conv.conv (xarr m c) (warr m c) (barr m c) (image t p) o h w := by
  unfold Cert.Conv.convBlk Cert.Conv.conv Cert.Conv.tap
  refine congrArg₂ (· + ·) ?_ (bblk_apply m c t o)
  refine Finset.sum_congr rfl fun i _ => Finset.sum_congr rfl fun j _ => Finset.sum_congr rfl fun ch _ => ?_
  exact congrArg₂ (· * ·) (paddedBlk_blocks m c t p _ _ ch) (wblk_apply m c t i j ch o)

end Cert.KernelIdeal.Blocks

end
-- ==== Proof.KernelResult.lean ====
/-
  The idealized kernel's run with its result named: the convolution `Cert.Conv.convArr` of the three arguments.

  Grid point `t` writes its output block to images `2 t`, `2 t + 1` of the `[32, 56, 56, 256]` array; the sixteen blocks
  tile it, so after the region the array is the convolution with the output channel last; the host line after the
  region moves the output channel to second place.

  Entry `(p, h, w, o)` of point `t`'s block is the block convolution of the point's three input blocks, which is the
  convolution of the arguments at image `2 t + p`; in the array that entry sits at `(2 t + p, h, w, o)` (a block's
  coordinate is its block index times the block's size plus the coordinate inside the block). Image `n` lies in the
  block of point `n / 2`. The transposition `[0, 3, 1, 2]` reads its result at `(n, o, h, w)` from its operand at
  `(n, h, w, o)`.
-/
import proofs.«171183_j29085518529124_1_alg».proof.Proof.BodyIdeal
import proofs.«171183_j29085518529124_1_alg».proof.Proof.BodyValue
import proofs.«171183_j29085518529124_1_alg».proof.Proof.KernelBlocks
import proofs.«171183_j29085518529124_1_alg».proof.Proof.ConvSpec
import proofs.«171183_j29085518529124_1_alg».proof.Proof.BlockSpec
import Idealize.ShloMosaic.Lib.Pipeline.Value
import Idealize.ShloMosaic.Lib.ValueIdx
import Idealize.ShloMosaic.Lib.StableHlo.Run

noncomputable section

namespace Cert.KernelIdeal.Result

open Cert.KernelIdeal Cert.KernelIdeal.Gen Cert.KernelIdeal.Body
open Idealize.ShloMosaic Idealize.ShloMosaic.ValueIdx
open Idealize.ShloMosaic.TcCoe
open Idealize.SL Idealize.SL.Sem
open scoped BigOperators
open Cert.KernelIdeal.Blocks

variable (m : (ℓ : Loc nD τ sig) → Buf (Elt Ideal) ℓ) (ρ : Dev nD → PrngReg)

/-- The region's result array, output channel last: entry `(n, h, w, o)` is the convolution's entry `(n, o, h, w)`. -/
def outNHWC (c : Dev nD) : S32x56x56x256.Idx → EReal :=
  fun y => Cert.Conv.conv (xarr m c) (warr m c) (barr m c) (y 0) (y 3) (y 1) (y 2)

/-- Where the output window's block sits at grid point `t`: block index `t` along the images, `0` on the other axes. -/
theorem out_index : ∀ t : Fin cfg0.N, win0_3.index t (0 : Fin 4) = t.val ∧ win0_3.index t (1 : Fin 4) = 0
    ∧ win0_3.index t (2 : Fin 4) = 0 ∧ win0_3.index t (3 : Fin 4) = 0 :=
  (by decide +kernel : ∀ t : Fin grid0.N, _)

/-- The convolution's entry depends on its four coordinates only. -/
theorem conv_coords (x : Cert.Conv.XShape.Idx → EReal) (wt : Cert.Conv.WShape.Idx → EReal) (b : Cert.Conv.BShape.Idx → EReal)
    {n n' : Fin 32} {o o' : Fin 256} {h h' w w' : Fin 56} (hn : n = n') (ho : o = o') (hh : h = h') (hw : w = w') :
    Cert.Conv.conv x wt b n o h w = Cert.Conv.conv x wt b n' o' h' w' := by
  subst hn ho hh hw; rfl

/-- What grid point `t` writes back is its block of the convolution, output channel last: images `2 t`, `2 t + 1`. -/
theorem flushed_out (c : Dev nD) (t : Fin cfg0.N) :
    (dats (F := Ideal) m 0 c).flushed 3 t = ((cfg0.win 3).blk t).view.read (Elt Ideal) (outNHWC m c) := by
  show (cfg0.win 3).cut (grid0.coords t) ((dats (F := Ideal) m 0 c).after 3 t) = _
  rw [after0_3]
  funext y
  obtain ⟨p, h, w, o, rfl⟩ : ∃ (p : Fin 2) (h w : Fin 56) (o : Fin 256), y = ix4 p h w o := ⟨y 0, y 1, y 2, y 3, eq_ix4 y⟩
  show OUT (F := Ideal) (xblk m c t) (wblk m c t) (bblk m c t) (ix4 p h w o) = _
  refine (Cert.KernelIdeal.BodyValue.OUT_apply (xblk m c t) (wblk m c t) (bblk m c t) p h w o).trans ?_
  refine (convBlk_blocks m c t p h w o).trans ?_
  rw [View.read_apply]
  obtain ⟨e0, e1, e2, e3⟩ := out_index t
  show _ = outNHWC m c (((cfg0.win 3).blk t).view.emb (ix4 p h w o))
  unfold outNHWC
  refine conv_coords _ _ _ (Fin.ext ?_) (Fin.ext ?_) (Fin.ext ?_) (Fin.ext ?_)
  · show 2 * t.val + p.val = win0_3.index t (0 : Fin 4) * 2 + 1 * p.val
    omega
  · show o.val = win0_3.index t (3 : Fin 4) * 256 + 1 * o.val
    omega
  · show h.val = win0_3.index t (1 : Fin 4) * 56 + 1 * h.val
    omega
  · show w.val = win0_3.index t (2 : Fin 4) * 56 + 1 * w.val
    omega

/-- An index of the result array is in grid point `t`'s block iff each coordinate is in the block's range. -/
theorem mem_out_blk (t : Fin cfg0.N) (i : S32x56x56x256.Idx) :
    i ∈ ((cfg0.win 3).blk t).view.set ↔ ∀ a : Fin 4, win0_3.index t a * S2x56x56x256.size a ≤ (i a).val
      ∧ (i a).val < win0_3.index t a * S2x56x56x256.size a + S2x56x56x256.size a := by
  show i ∈ ((View.whole main_v4).slice (win0_3.rect t)).set ↔ _
  rw [View.set_slice_whole, Rect.mem_set_unit]
  exact Iff.rfl

/-- The sixteen blocks tile the result array: image `n` is in the block of grid point `n / 2`. -/
theorem out_cover (i : S32x56x56x256.Idx) :
    ∃ t : Fin cfg0.N, (cfg0.win 3).flush t = true ∧ i ∈ ((cfg0.win 3).blk t).view.set := by
  have hi0 : (i 0).val < 32 := (i 0).isLt
  have hi1 : (i 1).val < 56 := (i 1).isLt
  have hi2 : (i 2).val < 56 := (i 2).isLt
  have hi3 : (i 3).val < 256 := (i 3).isLt
  have hN : cfg0.N = 16 := N_0
  refine ⟨⟨(i 0).val / 2, by omega⟩, flush0_3 _, ?_⟩
  rw [mem_out_blk]
  obtain ⟨e0, e1, e2, e3⟩ := out_index ⟨(i 0).val / 2, by omega⟩
  intro a
  match a with
  | ⟨0, _⟩ =>
    show win0_3.index ⟨(i 0).val / 2, _⟩ (0 : Fin 4) * 2 ≤ (i 0).val ∧ (i 0).val < win0_3.index ⟨(i 0).val / 2, _⟩ (0 : Fin 4) * 2 + 2
    rw [e0]; show (i 0).val / 2 * 2 ≤ (i 0).val ∧ (i 0).val < (i 0).val / 2 * 2 + 2; omega
  | ⟨1, _⟩ =>
    show win0_3.index ⟨(i 0).val / 2, _⟩ (1 : Fin 4) * 56 ≤ (i 1).val ∧ (i 1).val < win0_3.index ⟨(i 0).val / 2, _⟩ (1 : Fin 4) * 56 + 56
    rw [e1]; omega
  | ⟨2, _⟩ =>
    show win0_3.index ⟨(i 0).val / 2, _⟩ (2 : Fin 4) * 56 ≤ (i 2).val ∧ (i 2).val < win0_3.index ⟨(i 0).val / 2, _⟩ (2 : Fin 4) * 56 + 56
    rw [e2]; omega
  | ⟨3, _⟩ =>
    show win0_3.index ⟨(i 0).val / 2, _⟩ (3 : Fin 4) * 256 ≤ (i 3).val ∧ (i 3).val < win0_3.index ⟨(i 0).val / 2, _⟩ (3 : Fin 4) * 256 + 256
    rw [e3]; omega

/-- After the region the result array holds the convolution, output channel last. -/
theorem final_out (c : Dev nD) : (dats (F := Ideal) m 0 c).arrAt 3 cfg0.N = outNHWC m c :=
  (dats (F := Ideal) m 0 c).arrAt_eq_of_cover 3 (outNHWC m c) (fun t _ => flushed_out m c t) out_cover

/-- The host line after the region leaves the convolution, output channel second, in @main's result. -/
theorem tail_out (c : Dev nD) :
    Pipeline.afterTail₀ cfgs (dats (F := Ideal) m) 0 (V0 m) [hostOps1] c main_v5
      = Cert.Conv.convArr (xarr m c) (warr m c) (barr m c) := by
  unfold Pipeline.afterTail₀
  show StableHlo.after hostOps1 _ (Proc.devRef .tc main_v5) = _
  after_results
  have hv4 : Pipeline.withArrays (cfgs 0).spec c (V0 m c) (fun w => (dats (F := Ideal) m 0 c).arrAt w (cfgs 0).N)
      (Proc.devRef .tc main_v4) = outNHWC m c :=
    (Pipeline.withArrays_arr spec0 launch0.win.arr_inj c _ _ 3).trans (final_out m c)
  rw [hv4]
  funext y
  obtain ⟨n, o, h, w, rfl⟩ : ∃ (n : Fin 32) (o : Fin 256) (h w : Fin 56), y = ix4 n o h w := ⟨y 0, y 1, y 2, y 3, eq_ix4 y⟩
  refine (transpose_apply [0, 3, 1, 2] (outNHWC m c) _ (ix4 n o h w) (ix4 n h w o) fun b => ?_).trans ?_
  · match b with
    | ⟨0, _⟩ => rfl
    | ⟨1, _⟩ => rfl
    | ⟨2, _⟩ => rfl
    | ⟨3, _⟩ => rfl
  · rfl

/-- Every weakly fair execution of the idealized kernel's @main terminates with its result at the convolution of
    the arguments and the arguments unchanged. -/
theorem kernel_run : θ_run defs (onTc (τ := τ) (main (F := Ideal))) ⟨m, fun _ => 0, ρ⟩ (fun r => ∀ c : Dev nD,
      r.2.mem ((c.tc : Thread nD τ).loc main_v5)
        = Cert.Conv.convArr (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v5 (Pipeline.mem_restRefs_of main_v5 (by decide) (by decide))).trans (tail_out m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩)
    (run_main m ρ)

end Cert.KernelIdeal.Result

end
-- ==== Proof.SumFeatures.lean ====
/-
  Regrouping a sum over 1152 flattened features `k = 9 c + 3 i + j` (channel `c < 128`, tap row `i < 3`, tap column
  `j < 3`) by tap row, then tap column, then channel. Every `k < 1152` is `9 c + 3 i + j` for exactly one triple, so the
  two sums have the same terms; in a commutative monoid their order does not matter.
-/
import Mathlib.Algebra.BigOperators.Fin
import Mathlib.Logic.Equiv.Fin.Basic

open scoped BigOperators

namespace Cert.Conv

/-- The triple (tap row `i`, tap column `j`, channel `c`) corresponds to the flattened feature `9 c + 3 i + j`;
the inverse reads off `c = k / 9`, `i = (k % 9) / 3`, `j = k % 3`. -/
def featureEquiv : Fin 3 × Fin 3 × Fin 128 ≃ Fin 1152 where
  toFun p := ⟨9 * p.2.2.val + 3 * p.1.val + p.2.1.val, by omega⟩
  invFun k := (⟨k.val % 9 / 3, by omega⟩, ⟨k.val % 3, by omega⟩, ⟨k.val / 9, by omega⟩)
  left_inv := by
    rintro ⟨i, j, c⟩
    refine Prod.ext (Fin.ext ?_) (Prod.ext (Fin.ext ?_) (Fin.ext ?_)) <;> simp only <;> omega
  right_inv := by
    intro k
    refine Fin.ext ?_
    simp only
    omega

/-- A sum over the 1152 flattened features `k = 9 c + 3 i + j` regrouped by tap row, tap column and channel. -/
theorem sum_features {M : Type*} [AddCommMonoid M] (f : Fin 1152 → M) :
    ∑ k : Fin 1152, f k
      = ∑ i : Fin 3, ∑ j : Fin 3, ∑ c : Fin 128, f ⟨9 * c.val + 3 * i.val + j.val, by omega⟩ := by
  -- reindex along the bijection, then split the sum over triples into three nested sums
  rw [← Equiv.sum_comp featureEquiv f, Fintype.sum_prod_type]
  refine Finset.sum_congr rfl (fun i _ => ?_)
  rw [Fintype.sum_prod_type]
  rfl

end Cert.Conv
-- ==== Proof.RefValue.lean ====
/-
  The reference's result, entry by entry, is the convolution `Cert.Conv.conv` of its three arguments.

  The reference pads the image with zeros, cuts the nine shifted 56 × 56 windows, stacks them on a new axis of length 9
  (tap `3 i + j` at position `3 i + j`), flattens channel and tap to one feature axis `k = 9 c + 3 i + j` and the plane to
  `l = 56 h + w`, and contracts the features against the filter flattened the same way; then adds the bias.
-/
import proofs.«171183_j29085518529124_1_alg».proof.Proof.Gen.ReferenceIdeal.Run
import proofs.«171183_j29085518529124_1_alg».proof.Proof.Gen.ReferenceIdeal.Read
import proofs.«171183_j29085518529124_1_alg».proof.Proof.ConvSpec
import proofs.«171183_j29085518529124_1_alg».proof.Proof.SumFeatures
import Idealize.ShloMosaic.Lib.Pipeline.Value
import Idealize.ShloMosaic.Lib.ValueIdx
import Idealize.ShloMosaic.Lib.KernelVsHost
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx

open scoped BigOperators

/-! ## The padded image -/

/-- The padding value is the integer zero converted: the float zero. -/
theorem pad_value : val_main_call0_v0 (F := Ideal) (Shape.Idx.first h_S_) = (0 : EReal) := by
  show ((((0#32 : BitVec 32).toInt : ℤ) : ℝ) : EReal) = 0
  simp

/-- The padded array at `(n, c, r, s)` is the specification's padded plane: the image shifted by one inside the ring,
    zero on it. -/
theorem padded_apply (x : (⟨S32x128x56x56, .f32⟩ : BufTy).Contents (Elt Ideal)) (n : Fin 32) (c : Fin 128) (r s : Fin 58) :
    val_main_v0 (F := Ideal) x (ix4 n c r s) = Cert.Conv.padded x n c r s := by
  unfold val_main_v0
  by_cases hin : (1 ≤ r.val ∧ r.val ≤ 56) ∧ (1 ≤ s.val ∧ s.val ≤ 56)
  · rw [Cert.Conv.padded_inside x n c r s hin.1 hin.2]
    exact pad_apply_of_inside _ _ _ x _ pads_S32x128x56x56_S32x128x58x58_000_000_110_110 h_S_ (ix4 n c r s)
      (ix4 n c ⟨r.val - 1, by omega⟩ ⟨s.val - 1, by omega⟩) (fun a => match a with
        | ⟨0, _⟩ => by show n.val = 0 + n.val * (0 + 1); omega
        | ⟨1, _⟩ => by show c.val = 0 + c.val * (0 + 1); omega
        | ⟨2, _⟩ => by show r.val = 1 + (r.val - 1) * (0 + 1); omega
        | ⟨3, _⟩ => by show s.val = 1 + (s.val - 1) * (0 + 1); omega)
  · rw [Cert.Conv.padded_ring x n c r s hin]
    by_cases hr : 1 ≤ r.val ∧ r.val ≤ 56
    · have hs : ¬ (1 ≤ s.val ∧ s.val ≤ 56) := fun hs => hin ⟨hr, hs⟩
      refine (pad_apply_of_not_inside _ _ _ x _ pads_S32x128x56x56_S32x128x58x58_000_000_110_110 h_S_ (ix4 n c r s) 3 ?_).trans pad_value
      show ¬ (1 ≤ s.val ∧ (s.val - 1) % (0 + 1) = 0 ∧ (s.val - 1) / (0 + 1) < 56)
      omega
    · refine (pad_apply_of_not_inside _ _ _ x _ pads_S32x128x56x56_S32x128x58x58_000_000_110_110 h_S_ (ix4 n c r s) 2 ?_).trans pad_value
      show ¬ (1 ≤ r.val ∧ (r.val - 1) % (0 + 1) = 0 ∧ (r.val - 1) / (0 + 1) < 56)
      omega

/-! ## The stack of the nine shifted windows -/

/-- The nine windows with their unit axis, by position in the stack. -/
def pieces (x : (⟨S32x128x56x56, .f32⟩ : BufTy).Contents (Elt Ideal)) : Fin 9 → (S32x128x1x56x56.Idx → Elt Ideal .f32) :=
  fun t => match t with
    | ⟨0, _⟩ => val_main_v10 (F := Ideal) x
    | ⟨1, _⟩ => val_main_v11 (F := Ideal) x
    | ⟨2, _⟩ => val_main_v12 (F := Ideal) x
    | ⟨3, _⟩ => val_main_v13 (F := Ideal) x
    | ⟨4, _⟩ => val_main_v14 (F := Ideal) x
    | ⟨5, _⟩ => val_main_v15 (F := Ideal) x
    | ⟨6, _⟩ => val_main_v16 (F := Ideal) x
    | ⟨7, _⟩ => val_main_v17 (F := Ideal) x
    | ⟨8, _⟩ => val_main_v18 (F := Ideal) x

/-- The list of the stacked arrays is the list of the nine pieces in order, so its shapes stack to the result's. -/
theorem pieces_concatenates (x : (⟨S32x128x56x56, .f32⟩ : BufTy).Contents (Elt Ideal)) :
    Shape.Concatenates ((List.ofFn fun t : Fin 9 => (⟨S32x128x1x56x56, pieces x t⟩ : (s : Shape) × (s.Idx → Elt Ideal .f32))).map (·.1))
      S32x128x9x56x56 2 :=
  concatenates_S32x128x1x56x56_S32x128x1x56x56_S32x128x1x56x56_S32x128x1x56x56_S32x128x1x56x56_S32x128x1x56x56_S32x128x1x56x56_S32x128x1x56x56_S32x128x1x56x56_S32x128x9x56x56_d2

theorem stack_eq (x : (⟨S32x128x56x56, .f32⟩ : BufTy).Contents (Elt Ideal)) :
    val_main_v19 (F := Ideal) x
      = concatenate S32x128x9x56x56 2 (List.ofFn fun t : Fin 9 => (⟨S32x128x1x56x56, pieces x t⟩ : (s : Shape) × (s.Idx → Elt Ideal .f32)))
          (pieces_concatenates x) := rfl

/-- Position `t` of the stack is piece `t`, at the same other coordinates. -/
theorem stack_apply (x : (⟨S32x128x56x56, .f32⟩ : BufTy).Contents (Elt Ideal)) (n : Fin 32) (c : Fin 128) (t : Fin 9) (h w : Fin 56) :
    val_main_v19 (F := Ideal) x (ix5 n c t h w) = pieces x t (ix5 n c (0 : Fin 1) h w) := by
  rw [stack_eq]
  exact concatenate_ofFn_unit_apply (t := S32x128x9x56x56) (s₁ := S32x128x1x56x56) 2 (pieces x) (pieces_concatenates x) rfl rfl
    (ix5 n c t h w) t rfl (ix5 n c (0 : Fin 1) h w) (fun b => match b with
      | ⟨0, _⟩ => fun _ => rfl
      | ⟨1, _⟩ => fun _ => rfl
      | ⟨2, _⟩ => fun hb => absurd rfl hb
      | ⟨3, _⟩ => fun _ => rfl
      | ⟨4, _⟩ => fun _ => rfl)

/-- Piece `3 i + j` is the window of the padded array at offset `(i, j)`. -/
theorem piece_apply (x : (⟨S32x128x56x56, .f32⟩ : BufTy).Contents (Elt Ideal)) (n : Fin 32) (c : Fin 128) (h w : Fin 56) :
    ∀ i j : Fin 3, pieces x ⟨3 * i.val + j.val, by omega⟩ (ix5 n c (0 : Fin 1) h w)
      = val_main_v0 (F := Ideal) x (ix4 n c ⟨h.val + i.val, by omega⟩ ⟨w.val + j.val, by omega⟩)
  | ⟨0, _⟩, ⟨0, _⟩ => (val_main_v10_apply x _).trans ((val_main_v1_apply x _).trans (congrArg (val_main_v0 (F := Ideal) x)
      (funext fun a => match a with
        | ⟨0, _⟩ => rfl
        | ⟨1, _⟩ => rfl
        | ⟨2, _⟩ => Fin.ext (by show h.val = h.val + 0; omega)
        | ⟨3, _⟩ => Fin.ext (by show w.val = w.val + 0; omega))))
  | ⟨0, _⟩, ⟨1, _⟩ => (val_main_v11_apply x _).trans ((val_main_v2_apply x _).trans (congrArg (val_main_v0 (F := Ideal) x)
      (funext fun a => match a with
        | ⟨0, _⟩ => rfl
        | ⟨1, _⟩ => rfl
        | ⟨2, _⟩ => Fin.ext (by show h.val = h.val + 0; omega)
        | ⟨3, _⟩ => Fin.ext (by show 1 + w.val = w.val + 1; omega))))
  | ⟨0, _⟩, ⟨2, _⟩ => (val_main_v12_apply x _).trans ((val_main_v3_apply x _).trans (congrArg (val_main_v0 (F := Ideal) x)
      (funext fun a => match a with
        | ⟨0, _⟩ => rfl
        | ⟨1, _⟩ => rfl
        | ⟨2, _⟩ => Fin.ext (by show h.val = h.val + 0; omega)
        | ⟨3, _⟩ => Fin.ext (by show 2 + w.val = w.val + 2; omega))))
  | ⟨1, _⟩, ⟨0, _⟩ => (val_main_v13_apply x _).trans ((val_main_v4_apply x _).trans (congrArg (val_main_v0 (F := Ideal) x)
      (funext fun a => match a with
        | ⟨0, _⟩ => rfl
        | ⟨1, _⟩ => rfl
        | ⟨2, _⟩ => Fin.ext (by show 1 + h.val = h.val + 1; omega)
        | ⟨3, _⟩ => Fin.ext (by show w.val = w.val + 0; omega))))
  | ⟨1, _⟩, ⟨1, _⟩ => (val_main_v14_apply x _).trans ((val_main_v5_apply x _).trans (congrArg (val_main_v0 (F := Ideal) x)
      (funext fun a => match a with
        | ⟨0, _⟩ => rfl
        | ⟨1, _⟩ => rfl
        | ⟨2, _⟩ => Fin.ext (by show 1 + h.val = h.val + 1; omega)
        | ⟨3, _⟩ => Fin.ext (by show 1 + w.val = w.val + 1; omega))))
  | ⟨1, _⟩, ⟨2, _⟩ => (val_main_v15_apply x _).trans ((val_main_v6_apply x _).trans (congrArg (val_main_v0 (F := Ideal) x)
      (funext fun a => match a with
        | ⟨0, _⟩ => rfl
        | ⟨1, _⟩ => rfl
        | ⟨2, _⟩ => Fin.ext (by show 1 + h.val = h.val + 1; omega)
        | ⟨3, _⟩ => Fin.ext (by show 2 + w.val = w.val + 2; omega))))
  | ⟨2, _⟩, ⟨0, _⟩ => (val_main_v16_apply x _).trans ((val_main_v7_apply x _).trans (congrArg (val_main_v0 (F := Ideal) x)
      (funext fun a => match a with
        | ⟨0, _⟩ => rfl
        | ⟨1, _⟩ => rfl
        | ⟨2, _⟩ => Fin.ext (by show 2 + h.val = h.val + 2; omega)
        | ⟨3, _⟩ => Fin.ext (by show w.val = w.val + 0; omega))))
  | ⟨2, _⟩, ⟨1, _⟩ => (val_main_v17_apply x _).trans ((val_main_v8_apply x _).trans (congrArg (val_main_v0 (F := Ideal) x)
      (funext fun a => match a with
        | ⟨0, _⟩ => rfl
        | ⟨1, _⟩ => rfl
        | ⟨2, _⟩ => Fin.ext (by show 2 + h.val = h.val + 2; omega)
        | ⟨3, _⟩ => Fin.ext (by show 1 + w.val = w.val + 1; omega))))
  | ⟨2, _⟩, ⟨2, _⟩ => (val_main_v18_apply x _).trans ((val_main_v9_apply x _).trans (congrArg (val_main_v0 (F := Ideal) x)
      (funext fun a => match a with
        | ⟨0, _⟩ => rfl
        | ⟨1, _⟩ => rfl
        | ⟨2, _⟩ => Fin.ext (by show 2 + h.val = h.val + 2; omega)
        | ⟨3, _⟩ => Fin.ext (by show 2 + w.val = w.val + 2; omega))))

/-! ## The contraction -/

/-- The filter flattened to features, at feature `9 c + 3 i + j` of output channel `o`, is the filter at `(o, c, i, j)`. -/
theorem filter_apply (wt : (⟨S256x128x3x3, .f32⟩ : BufTy).Contents (Elt Ideal)) (o : Fin 256) (n : Fin 32) (l : Fin 3136)
    (c : Fin 128) (i j : Fin 3) :
    val_main_v22 (F := Ideal) wt (lidx_main_v23 (ix3 o n l) ⟨9 * c.val + 3 * i.val + j.val, by omega⟩) = wt (ix4 o c i j) :=
  (val_main_v22_apply wt _).trans (congrArg wt (funext fun a => match a with
    | ⟨0, _⟩ => Fin.ext (by show (o.val * 1152 + (9 * c.val + 3 * i.val + j.val)) / 1152 = o.val; omega)
    | ⟨1, _⟩ => Fin.ext (by show (o.val * 1152 + (9 * c.val + 3 * i.val + j.val)) / 9 % 128 = c.val; omega)
    | ⟨2, _⟩ => Fin.ext (by show (o.val * 1152 + (9 * c.val + 3 * i.val + j.val)) / 3 % 3 = i.val; omega)
    | ⟨3, _⟩ => Fin.ext (by show (o.val * 1152 + (9 * c.val + 3 * i.val + j.val)) % 3 = j.val; omega)))

/-- The stacked windows flattened and transposed, at plane position `56 h + w` and feature `9 c + 3 i + j`, are the
    padded image at `(n, c, h + i, w + j)`. -/
theorem windows_apply (x : (⟨S32x128x56x56, .f32⟩ : BufTy).Contents (Elt Ideal)) (o : Fin 256) (n : Fin 32) (h w : Fin 56)
    (c : Fin 128) (i j : Fin 3) :
    val_main_v21 (F := Ideal) x (ridx_main_v23 (ix3 o n (⟨56 * h.val + w.val, by omega⟩ : Fin 3136)) ⟨9 * c.val + 3 * i.val + j.val, by omega⟩)
      = Cert.Conv.padded x n c ⟨h.val + i.val, by omega⟩ ⟨w.val + j.val, by omega⟩ := by
  refine (val_main_v21_apply x _).trans ((val_main_v20_apply x _).trans ?_)
  have e : idx_main_v20 (idx_main_v21 (ridx_main_v23 (ix3 o n (⟨56 * h.val + w.val, by omega⟩ : Fin 3136))
      ⟨9 * c.val + 3 * i.val + j.val, by omega⟩)) = ix5 n c (⟨3 * i.val + j.val, by omega⟩ : Fin 9) h w :=
    funext fun a => match a with
      | ⟨0, _⟩ => Fin.ext (by show ((n.val * 1152 + (9 * c.val + 3 * i.val + j.val)) * 3136 + (56 * h.val + w.val)) / 3612672 = n.val; omega)
      | ⟨1, _⟩ => Fin.ext (by show ((n.val * 1152 + (9 * c.val + 3 * i.val + j.val)) * 3136 + (56 * h.val + w.val)) / 28224 % 128 = c.val; omega)
      | ⟨2, _⟩ => Fin.ext (by show ((n.val * 1152 + (9 * c.val + 3 * i.val + j.val)) * 3136 + (56 * h.val + w.val)) / 3136 % 9 = 3 * i.val + j.val; omega)
      | ⟨3, _⟩ => Fin.ext (by show ((n.val * 1152 + (9 * c.val + 3 * i.val + j.val)) * 3136 + (56 * h.val + w.val)) / 56 % 56 = h.val; omega)
      | ⟨4, _⟩ => Fin.ext (by show ((n.val * 1152 + (9 * c.val + 3 * i.val + j.val)) * 3136 + (56 * h.val + w.val)) % 56 = w.val; omega)
  rw [e, stack_apply, piece_apply, padded_apply]

/-- The product before the bias, at `(n, o, h, w)`: the nine taps. -/
theorem product_apply (x : (⟨S32x128x56x56, .f32⟩ : BufTy).Contents (Elt Ideal))
    (wt : (⟨S256x128x3x3, .f32⟩ : BufTy).Contents (Elt Ideal)) (n : Fin 32) (o : Fin 256) (h w : Fin 56) :
    val_main_v25 (F := Ideal) x wt (ix4 n o h w) = ∑ i : Fin 3, ∑ j : Fin 3, Cert.Conv.tap x wt n o h w i j := by
  have e : idx_main_v24 (idx_main_v25 (ix4 n o h w)) = ix3 o n (⟨56 * h.val + w.val, by omega⟩ : Fin 3136) :=
    funext fun a => match a with
      | ⟨0, _⟩ => Fin.ext (by show (((n.val * 256 + o.val) * 56 + h.val) * 56 + w.val) / 3136 % 256 = o.val; omega)
      | ⟨1, _⟩ => Fin.ext (by show (((n.val * 256 + o.val) * 56 + h.val) * 56 + w.val) / 802816 = n.val; omega)
      | ⟨2, _⟩ => Fin.ext (by show (((n.val * 256 + o.val) * 56 + h.val) * 56 + w.val) % 3136 = 56 * h.val + w.val; omega)
  refine (val_main_v25_apply x wt _).trans ((val_main_v24_apply x wt _).trans ?_)
  rw [e, val_main_v23_apply, Cert.Conv.sum_features]
  refine Finset.sum_congr rfl fun i _ => Finset.sum_congr rfl fun j _ => ?_
  unfold Cert.Conv.tap
  refine Finset.sum_congr rfl fun c _ => ?_
  rw [filter_apply, windows_apply]
  exact mul_comm _ _

/-- The bias broadcast over batch and plane, at `(n, o, h, w)`, is the bias of output channel `o`. -/
theorem bias_apply (b : (⟨S256, .f32⟩ : BufTy).Contents (Elt Ideal)) (n : Fin 32) (o : Fin 256) (h w : Fin 56) :
    val_main_v27 (F := Ideal) b (ix4 n o h w) = b (ix1 o) :=
  (val_main_v27_apply b _).trans ((val_main_v26_apply b _).trans (congrArg b (funext fun a => match a with
    | ⟨0, _⟩ => Fin.ext (by show ((0 * 256 + o.val) * 1 + 0) * 1 + 0 = o.val; omega))))

/-- The reference's last stage is the convolution of its arguments. -/
theorem ref_value (x : (⟨S32x128x56x56, .f32⟩ : BufTy).Contents (Elt Ideal))
    (wt : (⟨S256x128x3x3, .f32⟩ : BufTy).Contents (Elt Ideal)) (b : (⟨S256, .f32⟩ : BufTy).Contents (Elt Ideal)) :
    val_main_v28 (F := Ideal) x wt b = Cert.Conv.convArr x wt b := by
  funext y
  obtain ⟨n, o, h, w, rfl⟩ : ∃ (n : Fin 32) (o : Fin 256) (h w : Fin 56), y = ix4 n o h w := ⟨y 0, y 1, y 2, y 3, eq_ix4 y⟩
  rw [Cert.Conv.convArr_apply, val_main_v28_apply, product_apply, bias_apply]
  rfl

end Cert.ReferenceIdeal.RefValue

end
-- ==== Proof.lean ====
/-
  A 3 × 3 convolution with one ring of zero padding, `[32, 128, 56, 56]` images against a `[256, 128, 3, 3]` filter
  plus a bias: the kernel against its reference, equal over the extended reals.

  The kernel moves the channels last, pads each image block in a scratch buffer and adds, tap by tap, nine matrix
  products into an accumulator (each over the 128 channels), then the bias; the reference cuts the nine shifted
  windows of the padded image, flattens channel and tap into 1152 features and contracts them in one product. Entry
  `(n, o, h, w)` of either is the sum over taps `(i, j)` and channels `c` of `padded (n, c, h + i, w + j) ·
  filter (o, c, i, j)`, plus `bias o` (Proof/ConvSpec.lean): the two differ in the order and grouping of the sum and in
  the order of each product's factors, and addition and multiplication of extended reals are commutative and
  associative, so the precondition (finite inputs) is not used.

  * the three frames: the kernel's two from the body's triple and the pipeline's proof data (Proof/BodyBits.lean at
    the word-level instance, Proof/BodyIdeal.lean at the ideal one), the reference's from its run;
  * `preserves`: the idealization rewrote nothing;
  * `algebraic`: the idealized kernel's result (Proof/KernelResult.lean) and the reference's (Proof/RefValue.lean) are
    the one convolution of arguments that agree.
-/
import proofs.«171183_j29085518529124_1_alg».proof.Defs
import proofs.«171183_j29085518529124_1_alg».proof.Proof.Gen.Kernel
import proofs.«171183_j29085518529124_1_alg».proof.Proof.Gen.KernelIdeal
import proofs.«171183_j29085518529124_1_alg».proof.Proof.Gen.ReferenceIdeal
import proofs.«171183_j29085518529124_1_alg».proof.Proof.Gen.Pre_finite_inputs
import proofs.«171183_j29085518529124_1_alg».proof.Proof.Gen.ReferenceIdeal.Run
import proofs.«171183_j29085518529124_1_alg».proof.Proof.Gen.ReferenceIdeal.Read
import proofs.«171183_j29085518529124_1_alg».proof.Proof.BodyBits
import proofs.«171183_j29085518529124_1_alg».proof.Proof.BodyIdeal
import proofs.«171183_j29085518529124_1_alg».proof.Proof.KernelResult
import proofs.«171183_j29085518529124_1_alg».proof.Proof.RefValue
import Idealize.ShloMosaic.Adequacy
import Idealize.ShloMosaic.Init

noncomputable section

namespace Cert.Proof

open Idealize.ShloMosaic Idealize.SL.Sem

/-- The word-level kernel runs to the end, faults nowhere and keeps its arguments. -/
theorem frame_kernel : Cert.frame_Kernel := fun m ρ _ => Cert.Kernel.Body.frame m ρ

/-- So does the idealized kernel. -/
theorem frame_kernelIdeal : Cert.frame_KernelIdeal := fun m ρ _ => Cert.KernelIdeal.Body.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the convolution of the arguments. -/
theorem algebraic : Cert.algebraic_KernelIdeal_ReferenceIdeal := by
  intro m ρ m' ρ' _ hagree
  refine ⟨fun c => Cert.Conv.convArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Result.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.RefValue.ref_value,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
